-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S500000x3 : Shape := ⟨2, ![500000, 3]⟩
abbrev S100 : Shape := ⟨1, ![100]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S100 : S_.BroadcastsInDim S100 (![] : Fin 0 → Fin S100.rank)
  reducesTo_S100_S_d0 : S100.ReducesTo [0] S_
  bcast_S_S500000x3 : S_.BroadcastsInDim S500000x3 (![] : Fin 0 → Fin S500000x3.rank)
  reducesTo_S500000x3_S_d0_1 : S500000x3.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4096x128 .f32) (main_arg1 : IVec S4096 32) (main_arg2 : IVec S500000x3 32) (main_arg3 : FVec F S100 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S100 .f32 := Host.absf main_arg3
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_c_2 : IVec S_ 32 := constantI S_ 32 0#32
  let main_v9 : IVec S500000x3 32 := broadcastInDim S500000x3 ![] bcast_S_S500000x3 main_c_2
  let main_v10 : IVec S500000x3 1 := cmpi .sge main_arg2 main_v9
  let main_c_3 : IVec S_ 1 := constantI S_ 1 1#1
  let main_v11 : IVec S_ 1 := (fun x v => Host.reduce IntOp.andi x v reducesTo_S500000x3_S_d0_1 h_S_) main_v10 main_c_3
  let main_v12 : IVec S_ 1 := andi main_v8 main_v11
  let main_c_4 : IVec S_ 32 := constantI S_ 32 4096#32
  let main_v13 : IVec S500000x3 32 := broadcastInDim S500000x3 ![] bcast_S_S500000x3 main_c_4
  let main_v14 : IVec S500000x3 1 := cmpi .slt main_arg2 main_v13
  let main_c_5 : IVec S_ 1 := constantI S_ 1 1#1
  let main_v15 : IVec S_ 1 := (fun x v => Host.reduce IntOp.andi x v reducesTo_S500000x3_S_d0_1 h_S_) main_v14 main_c_5
  fn_part1 (F := F) main_v12 main_v15
-- ==== Kernel.lean ====
abbrev S4096x128 : Shape := ⟨2, ![4096, 128]⟩
abbrev S4096 : Shape := ⟨1, ![4096]⟩
abbrev S500000x3 : Shape := ⟨2, ![500000, 3]⟩
abbrev S100 : Shape := ⟨1, ![100]⟩
abbrev S_ : Shape := ⟨0, ![]⟩
abbrev S500736x3 : Shape := ⟨2, ![500736, 3]⟩
abbrev S4096x1 : Shape := ⟨2, ![4096, 1]⟩
abbrev S4096x129 : Shape := ⟨2, ![4096, 129]⟩
abbrev S2x1x2 : Shape := ⟨3, ![2, 1, 2]⟩
abbrev S512x3 : Shape := ⟨2, ![512, 3]⟩
abbrev S1x1x2 : Shape := ⟨3, ![1, 1, 2]⟩
abbrev S1x1 : Shape := ⟨2, ![1, 1]⟩
abbrev S512x1 : Shape := ⟨2, ![512, 1]⟩
abbrev S512x4096 : Shape := ⟨2, ![512, 4096]⟩
abbrev S512x129 : Shape := ⟨2, ![512, 129]⟩
abbrev S512x128 : Shape := ⟨2, ![512, 128]⟩
abbrev S512 : Shape := ⟨1, ![512]⟩
abbrev S1 : Shape := ⟨1, ![1]⟩
abbrev S1x2 : Shape := ⟨2, ![1, 2]⟩
abbrev S2x1x1 : Shape := ⟨3, ![2, 1, 1]⟩
abbrev S2 : Shape := ⟨1, ![2]⟩

abbrev nBuf : Space → Nat
  | .hbm => 35
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S500000x3, .i32⟩
  | .hbm, ⟨3, _⟩ => ⟨S100, .f32⟩
  | .hbm, ⟨4, _⟩ => ⟨S_, .i32⟩
  | .hbm, ⟨5, _⟩ => ⟨S_, .i32⟩
  | .hbm, ⟨6, _⟩ => ⟨S500736x3, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096, .f32⟩
  | .hbm, ⟨16, _⟩ => ⟨S4096x128, .bf16⟩
  | .hbm, ⟨17, _⟩ => ⟨S4096, .bf16⟩
  | .hbm, ⟨18, _⟩ => ⟨S4096x1, .bf16⟩
  | .hbm, ⟨19, _⟩ => ⟨S4096x129, .bf16⟩
  | .hbm, ⟨20, _⟩ => ⟨S2x1x2, .f32⟩
  | .hbm, ⟨21, _⟩ => ⟨S2x1x1, .f32⟩
  | .hbm, ⟨22, _⟩ => ⟨S2, .f32⟩
  | .hbm, ⟨23, _⟩ => ⟨S_, .f32⟩
  | .hbm, ⟨24, _⟩ => ⟨S_, .f32⟩
  | .hbm, ⟨25, _⟩ => ⟨S2x1x1, .f32⟩
  | .hbm, ⟨26, _⟩ => ⟨S2, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S512x3, .i32⟩
  | .local _ .vmem, ⟨1, _⟩ => ⟨S512x3, .i32⟩
  | .local _ .vmem, ⟨2, _⟩ => ⟨S4096x129, .bf16⟩
  | .local _ .vmem, ⟨3, _⟩ => ⟨S1x1x2, .f32⟩
  | .local _ .vmem, ⟨4, _⟩ => ⟨S1x1x2, .f32⟩
  | .local _ .vmem, ⟨5, _⟩ => ⟨S1x1, .f32⟩
  | .local _ .vmem, ⟨6, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 489], ![false, false]⟩

def k0_cond2 (i : grid0.Coords) : BitVec 1 :=
  let arg1 : BitVec 32 := BitVec.ofNat 32 (i 1).val
  let c488_i32 : BitVec 32 := 488#32
  let v97 : BitVec 1 := Scalar.cmpi .eq arg1 c488_i32
  let v98 : BitVec 32 := Scalar.extui v97
  let c0_i32_27 : BitVec 32 := 0#32
  let v99 : BitVec 1 := Scalar.cmpi .ne v98 c0_i32_27
  v99

def cc0_transform_0 (i : grid0.Coords) : Fin 2 → Nat :=
  let arg0 : BitVec 32 := BitVec.ofNat 32 (i 0).val
  let arg1 : BitVec 32 := BitVec.ofNat 32 (i 1).val
  let c489_i32 : BitVec 32 := 489#32
  let v0 : BitVec 32 := Scalar.muli arg0 c489_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x129 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S500000x3_S500736x3_07360_000 : S500000x3.Pads (![0, 0] : Fin 2 → Nat) ![736, 0] ![0, 0] S500736x3
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bitsLt_bf16_f32 : FTy.bits .bf16 < FTy.bits .f32
  concatenates_S4096x128_S4096x1_S4096x129_d1 : Shape.Concatenates [S4096x128, S4096x1] S4096x129 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x3_S512x3_0_0 : ∀ a, (![0, 0] : Fin 2 → Nat) a + S512x3.size a ≤ S512x3.size a
  h_S512x3 : 0 < S512x3.numel
  shapeCasts_S512x3_S512x3 : S512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  inb_S4096x129_S4096x129_0_0 : ∀ a, (![0, 0] : Fin 2 → Nat) a + S4096x129.size a ≤ S4096x129.size a
  h_S4096x129 : 0 < S4096x129.numel
  shapeCasts_S4096x129_S4096x129 : S4096x129.ShapeCasts S4096x129
  iota_S512x4096_d1_w32 : S512x4096.Iotas .tc 32 [1]
  broadcasts_S512x1_S512x4096 : S512x1.Broadcasts S512x4096
  natLt_1_32 : 1 < 32
  slices_S512x129_o0_0_S512x128 : S512x129.Slices ![0, 0] S512x128
  slices_S512x129_o0_128_S512x1 : S512x129.Slices ![0, 128] S512x1
  reduces_S512x128_S512 : S512x128.Reduces [1] S512
  shapeCasts_S512_S512x1 : S512.ShapeCasts S512x1
  iota_S512x1_d0_w32 : S512x1.Iotas .tc 32 [0]
  reduces_S512x1_S1 : S512x1.Reduces [0] S1
  shapeCasts_S1_S1x1 : S1.ShapeCasts S1x1
  concatenates_S1x1_S1x1_S1x2_d1 : Shape.Concatenates [S1x1, S1x1] S1x2 1
  shapeCasts_S1x2_S1x1x2 : S1x2.ShapeCasts S1x1x2
  inb_S1x1x2_S1x1x2_0_0_0 : ∀ a, (![0, 0, 0] : Fin 3 → Nat) a + S1x1x2.size a ≤ S1x1x2.size a
  h_S1x1x2 : 0 < S1x1x2.numel
  slices_S2x1x2_S2x1x1_0_0_0 : S2x1x2.Slices ![0, 0, 0] S2x1x1
  shapeCasts_S2x1x1_S2 : S2x1x1.ShapeCasts S2
  reducesTo_S2_S_d0 : S2.ReducesTo [0] S_
  slices_S2x1x2_S2x1x1_0_0_1 : S2x1x2.Slices ![0, 0, 1] S2x1x1
  gather_S100_S4096x1_S4096_n_0_n_n_0_1_1_wf : GatherDims.WF S100 S4096x1 S4096 [] [0] [] [0] [] 1 ![1]
  dot_S512x4096_S4096x129_S512x129_1_0_0_1_n_n_wf : DotDims.WF S512x4096 S4096x129 S512x129 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S500736x3.size a
  hwx0_0 : ∀ i : grid0.Coords, EltTy.bits .i32 = 32 ∨ (Rect.block (s := S500736x3) S512x3.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x129.size a ≤ S4096x129.size a
  hwx0_1 : ∀ i : grid0.Coords, EltTy.bits .bf16 = 32 ∨ (Rect.block (s := S4096x129) S4096x129.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2.size a ≤ S2x1x2.size a
  hwx0_2 : ∀ i : grid0.Coords, EltTy.bits .f32 = 32 ∨ (Rect.block (s := S2x1x2) S1x1x2.size (cc0_transform_2 i) (hinb0_2 i)).WholeWords (EltTy.packing .f32)

variable [Facts₀]

def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def dot_S512x4096_S4096x129_S512x129_1_0_0_1_n_n : DotDims S512x4096 S4096x129 S512x129 where
  lhsContracting := [1]
  rhsContracting := [0]
  lhsNonContracting := [0]
  rhsNonContracting := [1]
  lhsBatch := []
  rhsBatch := []
  wf := dot_S512x4096_S4096x129_S512x129_1_0_0_1_n_n_wf

abbrev win0_0 : Pipeline.Window sig grid0 :=
  Pipeline.Window.ofSpec (Memref.whole main_v0) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x129.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S4096 : Shape := ⟨1, ![4096]⟩
abbrev S500000x3 : Shape := ⟨2, ![500000, 3]⟩
abbrev S100 : Shape := ⟨1, ![100]⟩
abbrev S500000x1 : Shape := ⟨2, ![500000, 1]⟩
abbrev S500000 : Shape := ⟨1, ![500000]⟩
abbrev S_ : Shape := ⟨0, ![]⟩
abbrev S500000x128 : Shape := ⟨2, ![500000, 128]⟩

abbrev nBuf : Space → Nat
  | .hbm => 109
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S500000x3, .i32⟩
  | .hbm, ⟨3, _⟩ => ⟨S100, .f32⟩
  | .hbm, ⟨4, _⟩ => ⟨S500000x1, .i32⟩
  | .hbm, ⟨5, _⟩ => ⟨S500000, .i32⟩
  | .hbm, ⟨6, _⟩ => ⟨S_, .i32⟩
  | .hbm, ⟨7, _⟩ => ⟨S500000, .i32⟩
  | .hbm, ⟨8, _⟩ => ⟨S500000, .i1⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000, .i32⟩
  | .hbm, ⟨13, _⟩ => ⟨S500000x1, .i32⟩
  | .hbm, ⟨14, _⟩ => ⟨S500000x128, .f32⟩
  | .hbm, ⟨15, _⟩ => ⟨S500000x1, .i32⟩
  | .hbm, ⟨16, _⟩ => ⟨S500000, .i32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S500000x1, .i32⟩
  | .hbm, ⟨27, _⟩ => ⟨S500000, .i32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i32⟩
  | .hbm, ⟨34, _⟩ => ⟨S500000, .i32⟩
  | .hbm, ⟨35, _⟩ => ⟨S500000x1, .i32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S_, .f32⟩
  | .hbm, ⟨40, _⟩ => ⟨S500000, .f32⟩
  | .hbm, ⟨41, _⟩ => ⟨S_, .f32⟩
  | .hbm, ⟨42, _⟩ => ⟨S500000, .f32⟩
  | .hbm, ⟨43, _⟩ => ⟨S500000, .f32⟩
  | .hbm, ⟨44, _⟩ => ⟨S500000, .f32⟩
  | .hbm, ⟨45, _⟩ => ⟨S500000x128, .f32⟩
  | .hbm, ⟨46, _⟩ => ⟨S500000x128, .f32⟩
  | .hbm, ⟨47, _⟩ => ⟨S_, .f32⟩
  | .hbm, ⟨48, _⟩ => ⟨S500000, .f32⟩
  | .hbm, ⟨49, _⟩ => ⟨S_, .f32⟩
  | .hbm, ⟨50, _⟩ => ⟨S500000, .f32⟩
  | .hbm, ⟨51, _⟩ => ⟨S500000, .f32⟩
  | .hbm, ⟨52, _⟩ => ⟨S500000, .f32⟩
  | .hbm, ⟨53, _⟩ => ⟨S500000x1, .i32⟩
  | .hbm, ⟨54, _⟩ => ⟨S500000, .i32⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000, .i32⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S_, .i32⟩
  | .hbm, ⟨68, _⟩ => ⟨S500000, .i32⟩
  | .hbm, ⟨69, _⟩ => ⟨S500000, .i32⟩
  | .hbm, ⟨70, _⟩ => ⟨S500000, .i32⟩
  | .hbm, ⟨71, _⟩ => ⟨S500000x1, .i32⟩
  | .hbm, ⟨72, _⟩ => ⟨S500000, .f32⟩
  | .hbm, ⟨73, _⟩ => ⟨S500000, .f32⟩
  | .hbm, ⟨74, _⟩ => ⟨S_, .f32⟩
  | .hbm, ⟨75, _⟩ => ⟨S500000, .f32⟩
  | .hbm, ⟨76, _⟩ => ⟨S500000, .f32⟩
  | .hbm, ⟨77, _⟩ => ⟨S_, .f32⟩
  | .hbm, ⟨78, _⟩ => ⟨S500000, .f32⟩
  | .hbm, ⟨79, _⟩ => ⟨S500000, .f32⟩
  | .hbm, ⟨80, _⟩ => ⟨S500000, .f32⟩
  | .hbm, ⟨81, _⟩ => ⟨S_, .f32⟩
  | .hbm, ⟨82, _⟩ => ⟨S500000, .f32⟩
  | .hbm, ⟨83, _⟩ => ⟨S500000, .f32⟩
  | .hbm, ⟨84, _⟩ => ⟨S_, .f32⟩
  | .hbm, ⟨85, _⟩ => ⟨S500000, .f32⟩
  | .hbm, ⟨86, _⟩ => ⟨S500000, .f32⟩
  | .hbm, ⟨87, _⟩ => ⟨S_, .f32⟩
  | .hbm, ⟨88, _⟩ => ⟨S500000, .f32⟩
  | .hbm, ⟨89, _⟩ => ⟨S500000, .i1⟩
  | .hbm, ⟨90, _⟩ => ⟨S500000, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S500000, .f32⟩
  | .hbm, ⟨95, _⟩ => ⟨S500000, .i1⟩
  | .hbm, ⟨96, _⟩ => ⟨S500000, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S500000, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .i1⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_8 : Ref sig .tc := ⟨.hbm, 55, rfl⟩
abbrev main_v41 : Ref sig .tc := ⟨.hbm, 56, rfl⟩
abbrev main_v42 : Ref sig .tc := ⟨.hbm, 57, rfl⟩
abbrev main_c_9 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_call0_cst : Ref sig .tc := ⟨.hbm, 77, rfl⟩
abbrev main_call0_v0 : Ref sig .tc := ⟨.hbm, 78, rfl⟩
abbrev main_v58 : Ref sig .tc := ⟨.hbm, 79, rfl⟩
abbrev main_v59 : Ref sig .tc := ⟨.hbm, 80, rfl⟩
abbrev main_cst_13 : Ref sig .tc := ⟨.hbm, 81, rfl⟩
abbrev main_v60 : Ref sig .tc := ⟨.hbm, 82, rfl⟩
abbrev main_v61 : Ref sig .tc := ⟨.hbm, 83, rfl⟩
abbrev main_call1_cst : Ref sig .tc := ⟨.hbm, 84, rfl⟩
abbrev main_call1_v0 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_15 : Ref sig .tc := ⟨.hbm, 91, rfl⟩
abbrev main_v66 : Ref sig .tc := ⟨.hbm, 92, rfl⟩
abbrev main_cst_16 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_cst_19 : Ref sig .tc := ⟨.hbm, 103, rfl⟩
abbrev main_v74 : Ref sig .tc := ⟨.hbm, 104, rfl⟩
abbrev main_cst_20 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]

class Facts₀ : Prop where
  slices_S500000x3_S500000x1_0_0 : S500000x3.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x3_S500000x1_0_1 : S500000x3.Slices ![0, 1] S500000x1
  slices_S500000x3_S500000x1_0_2 : S500000x3.Slices ![0, 2] S500000x1
  reducesTo_S500000x128_S500000_d1 : S500000x128.ReducesTo [1] S500000
  h_S_ : 0 < S_.numel
  reducesTo_S500000_S_d0 : S500000.ReducesTo [0] S_
  gather_S4096x128_S500000x1_S500000x128_1_0_n_n_0_1_1128_wf : GatherDims.WF S4096x128 S500000x1 S500000x128 [1] [0] [] [0] [] 1 ![1, 128]
  gather_S4096_S500000x1_S500000_n_0_n_n_0_1_1_wf : GatherDims.WF S4096 S500000x1 S500000 [] [0] [] [0] [] 1 ![1]
  gather_S100_S500000x1_S500000_n_0_n_n_0_1_1_wf : GatherDims.WF S100 S500000x1 S500000 [] [0] [] [0] [] 1 ![1]

variable [Facts₀]

def gather_S4096x128_S500000x1_S500000x128_1_0_n_n_0_1_1128 : GatherDims S4096x128 S500000x1 S500000x128 where
  offsetDims := [1]
  collapsedSliceDims := [0]
  operandBatchingDims := []
  startIndicesBatchingDims := []
  startIndexMap := [0]
  indexVectorDim := 1
  sliceSizes := ![1, 128]
  wf := gather_S4096x128_S500000x1_S500000x128_1_0_n_n_0_1_1128_wf
def gather_S4096_S500000x1_S500000_n_0_n_n_0_1_1 : GatherDims S4096 S500000x1 S500000 where
  offsetDims := []
  collapsedSliceDims := [0]
  operandBatchingDims := []
  startIndicesBatchingDims := []
  startIndexMap := [0]
  indexVectorDim := 1
  sliceSizes := ![1]
  wf := gather_S4096_S500000x1_S500000_n_0_n_n_0_1_1_wf
def gather_S100_S500000x1_S500000_n_0_n_n_0_1_1 : GatherDims S100 S500000x1 S500000 where
  offsetDims := []
  collapsedSliceDims := [0]
  operandBatchingDims := []
  startIndicesBatchingDims := []
  startIndexMap := [0]
  indexVectorDim := 1
  sliceSizes := ![1]
  wf := gather_S100_S500000x1_S500000_n_0_n_n_0_1_1_wf

class Facts : Prop extends Facts₀ where

variable [Facts]
-- ==== Proof.Loss.lean ====
/-
  The triplet margin loss as ONE function of the four argument arrays, over the extended reals.

  For a triplet (a, p, n) of row numbers into the embedding table E : [4096, 128], with the anchor's
  class threshold β a,
      d(u, v)  = sqrt (∑_k (u_k - v_k)² + ε)
      pos      = max (d(E a, E p) - β a + margin) 0
      neg      = max (β a - d(E a, E n) + margin) 0.
  The result is T / max C 1 when C > 0 and T otherwise, where T = ∑_t (pos_t + neg_t) over the 500000
  triplets and C counts the strictly positive pos_t and neg_t.

  Also here: the same quantities over one tile of 512 rows with a 0/1 validity factor, which is what a
  grid point adds to its two running sums.
-/
import Idealize.ShloMosaic.PureOps.Ideal
import Idealize.ShloMosaic.Lib.ValueIdx

noncomputable section

namespace Cert.Loss

open Idealize.ShloMosaic Idealize.ShloMosaic.ValueIdx

/-- The stabiliser under the square root and the margin: the same two binary words in both programs. -/
abbrev eps : EReal := Ideal.ofBits .f32 0x322BCC77#32
abbrev margin : EReal := Ideal.ofBits .f32 0x3E4CCCCD#32

/-- The table row a triplet entry names. Entries lie in [0, 4096) under the precondition, where this is
    the entry's own value. -/
def rowOf (w : BitVec 32) : Fin 4096 := ⟨w.toNat % 4096, Nat.mod_lt _ (by decide)⟩

theorem rowOf_val {w : BitVec 32} (h : w.toNat < 4096) : (rowOf w).val = w.toNat := Nat.mod_eq_of_lt h

/-- Squared Euclidean distance of two rows, and the stabilised distance. -/
def sqd (u v : Fin 128 → EReal) : EReal := ∑ k : Fin 128, (u k - v k) * (u k - v k)
def dist (u v : Fin 128 → EReal) : EReal := Ideal.sqrt (sqd u v + eps)

/-- The hinge with margin. -/
def hinge (x : EReal) : EReal := max (x + margin) 0

def posOf (E : Fin 4096 → Fin 128 → EReal) (β : Fin 4096 → EReal) (a p : Fin 4096) : EReal :=
  hinge (dist (E a) (E p) - β a)
def negOf (E : Fin 4096 → Fin 128 → EReal) (β : Fin 4096 → EReal) (a n : Fin 4096) : EReal :=
  hinge (β a - dist (E a) (E n))

/-- 1 when x > 0, else 0: a comparison's bit read as a number. -/
def ind (x : EReal) : EReal := (((Ideal.cmp .ogt x 0).toNat : ℝ) : EReal)

/-- A negative index counts from the end: jnp's normalisation of an index into an axis of extent n. -/
def wrapIdx (n w : BitVec 32) : BitVec 32 := Scalar.select (IntOp.cmpi .slt w 0#32) (IntOp.addi w n) w

section Arrays

variable (x0 : (⟨2, ![4096, 128]⟩ : Shape).Idx → EReal) (x1 : (⟨1, ![4096]⟩ : Shape).Idx → BitVec 32)
  (x2 : (⟨2, ![500000, 3]⟩ : Shape).Idx → BitVec 32) (x3 : (⟨1, ![100]⟩ : Shape).Idx → EReal)

/-- The embedding table by row and lane. -/
def embOf : Fin 4096 → Fin 128 → EReal := fun i k => x0 (ix2 i k)

/-- Row i's threshold: the class table at row i's label, the label normalised and clamped into [0, 99]
    as a gather reads it. -/
def betOf : Fin 4096 → EReal := fun i =>
  x3 (ix1 ⟨min (wrapIdx 100#32 (x1 (ix1 i))).toInt.toNat 99, by omega⟩)

def posT (t : Fin 500000) : EReal :=
  posOf (embOf x0) (betOf x1 x3) (rowOf (x2 (ix2 t (0 : Fin 3)))) (rowOf (x2 (ix2 t (1 : Fin 3))))
def negT (t : Fin 500000) : EReal :=
  negOf (embOf x0) (betOf x1 x3) (rowOf (x2 (ix2 t (0 : Fin 3)))) (rowOf (x2 (ix2 t (2 : Fin 3))))

def total : EReal := ∑ t : Fin 500000, (posT x0 x1 x2 x3 t + negT x0 x1 x2 x3 t)
def count : EReal := ∑ t : Fin 500000, ind (posT x0 x1 x2 x3 t) + ∑ t : Fin 500000, ind (negT x0 x1 x2 x3 t)

end Arrays

/-- The last three scalar operations, the same in both programs: T / max C 1 where C > 0, else T. -/
def finish (T C : FVec Ideal ⟨0, ![]⟩ .f32) : FVec Ideal ⟨0, ![]⟩ .f32 :=
  select (cmpf .ogt C (constant ⟨0, ![]⟩ .f32 0x00000000#32))
    (Host.divf T (maximumf C (constant ⟨0, ![]⟩ .f32 0x3F800000#32))) T

/-- THE RESULT both programs compute. -/
def answer (x0 : (⟨2, ![4096, 128]⟩ : Shape).Idx → EReal) (x1 : (⟨1, ![4096]⟩ : Shape).Idx → BitVec 32)
    (x2 : (⟨2, ![500000, 3]⟩ : Shape).Idx → BitVec 32) (x3 : (⟨1, ![100]⟩ : Shape).Idx → EReal) :
    FVec Ideal ⟨0, ![]⟩ .f32 :=
  finish (fun _ => total x0 x1 x2 x3) (fun _ => count x0 x1 x2 x3)

/-! ## One tile of 512 rows -/

/-- Row r of tile q is triplet q·512 + r; it is a real triplet below 500000 and padding above. -/
def vldAt (q : ℕ) (r : Fin 512) : EReal := if q * 512 + r.val < 500000 then 1 else 0

/-- What a grid point adds to the running total: over its 512 rows, each hinge times the row's validity. -/
def tileTotal (E : Fin 4096 → Fin 128 → EReal) (β : Fin 4096 → EReal) (blk : Fin 512 → Fin 3 → BitVec 32)
    (vld : Fin 512 → EReal) : EReal :=
  ∑ r : Fin 512, (posOf E β (rowOf (blk r 0)) (rowOf (blk r 1)) * vld r
    + negOf E β (rowOf (blk r 0)) (rowOf (blk r 2)) * vld r)

/-- and to the running count. -/
def tileCount (E : Fin 4096 → Fin 128 → EReal) (β : Fin 4096 → EReal) (blk : Fin 512 → Fin 3 → BitVec 32)
    (vld : Fin 512 → EReal) : EReal :=
  ∑ r : Fin 512, ind (posOf E β (rowOf (blk r 0)) (rowOf (blk r 1)) * vld r)
    + ∑ r : Fin 512, ind (negOf E β (rowOf (blk r 0)) (rowOf (blk r 2)) * vld r)

end Cert.Loss

end
-- ==== Proof.RefValue.lean ====
/-
  The reference program's result is the triplet margin loss of the four argument arrays.

  At a triplet t with entries (a, p, n), all three in [0, 4096): the normalised start index of each
  row gather is the entry itself and the gather's clamp leaves it alone, so the three gathers read
  rows a, p, n of the embedding table; the label gather reads row a's label and the threshold gather
  reads the class table at that label, normalised and clamped. The lane sums give the two stabilised
  distances, the two hinges follow, and the three sums over the 500000 triplets are the total and the
  two counts. The last four operations are the closing quotient.
-/
import proofs.«420433_j24773371363774_2_alg».proof.Proof.RefRead
import proofs.«420433_j24773371363774_2_alg».proof.Proof.Loss
import Idealize.ShloMosaic.Lib.StableHlo.Predicate
import Idealize.ShloMosaic.Lib.ValueIdx
import Idealize.ShloMosaic.Lib.ValueIdxRank1
import Idealize.ShloMosaic.PureOps.Ideal.Laws

noncomputable section

namespace Cert.ReferenceIdeal.RefValue

open Cert.ReferenceIdeal Cert.ReferenceIdeal.ReadP Cert.ReferenceIdeal.Gen
open Idealize.ShloMosaic Idealize.ShloMosaic.ValueIdx Idealize.ShloMosaic.StableHlo.Predicate

/-! ## A gather of whole rows -/

/-- A gather of whole rows of an [N × L] table at an [n × 1] column of start indices: result element
    (p, k) is the table at (row, k), the row being position p's start index read signed and clamped
    into the table. -/
theorem gather_rows {α : Type} {N L n w : Nat} (d : GatherDims ⟨2, ![N, L]⟩ ⟨2, ![n, 1]⟩ ⟨2, ![n, L]⟩)
    (hoff : d.offsetDims = [1]) (hcoll : d.collapsedSliceDims = [0]) (hob : d.operandBatchingDims = [])
    (hsim : d.startIndexMap = [0]) (hivd : d.indexVectorDim = 1)
    (x : (⟨2, ![N, L]⟩ : Shape).Idx → α) (idx : IVec ⟨2, ![n, 1]⟩ w) (p : Fin n) (k : Fin L) (hN : 0 < N) :
    Host.gather d x idx (ix2 p k) = x (ix2 ⟨min (idx (ixP p)).toInt.toNat (N - 1), by omega⟩ k) := by
  unfold Host.gather
  congr 1
  funext a
  apply Fin.ext
  have hb : ∀ a : Fin (⟨2, ![N, L]⟩ : Shape).rank, a ∉ d.operandBatchingDims := by
    intro a; rw [hob]; exact List.not_mem_nil
  have ha : a = 0 ∨ a = 1 := by
    match a with
    | ⟨0, _⟩ => exact Or.inl rfl
    | ⟨1, _⟩ => exact Or.inr rfl
  rcases ha with rfl | rfl
  · -- the row: the clamped start index, no offset
    have hk : (0 : Fin (⟨2, ![N, L]⟩ : Shape).rank) ∉ d.sKept := by rw [GatherDims.mem_sKept, hcoll]; simp
    have hm : (0 : Fin (⟨2, ![N, L]⟩ : Shape).rank) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb _), GatherDims.offCoord_eq_zero _ _ _ hk,
      Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have e : ∀ X : Fin (⟨2, ![n, L]⟩ : Shape).rank, X ∈ d.batchDims → ((ix2 p k : (⟨2, ![n, L]⟩ : Shape).Idx) X).val = p.val := by
        intro X hX
        have hX' : X ∉ d.offsetDims := by
          have := (List.mem_filter.mp hX).2
          simpa using this
        rw [hoff] at hX'
        match X with
        | ⟨0, _⟩ => rfl
        | ⟨1, _⟩ => exact absurd (List.mem_singleton.mpr rfl) hX'
      exact e _ (List.getElem_mem _)
    | ⟨1, _⟩ =>
      unfold GatherDims.siIdx
      rw [dif_pos (by rw [hivd])]
      apply Fin.ext
      show List.idxOf (0 : Fin (⟨2, ![N, L]⟩ : Shape).rank) d.startIndexMap = 0
      rw [hsim]; simp
  · -- the lane: the offset coordinate, no start
    have hm : (1 : Fin (⟨2, ![N, L]⟩ : Shape).rank) ∉ d.startIndexMap := by rw [hsim]; simp
    have hk : (1 : Fin (⟨2, ![N, L]⟩ : Shape).rank) ∈ d.sKept := by rw [GatherDims.mem_sKept, hcoll, hob]; simp
    simp only [GatherDims.operandIdx, GatherDims.batchCoord_eq_zero _ _ _ (hb _), Nat.add_zero, GatherDims.start, dif_neg hm,
      Nat.zero_add, GatherDims.offCoord, dif_pos hk]
    have e : ∀ X : Fin (⟨2, ![n, L]⟩ : Shape).rank, X ∈ d.offsetDims → ((ix2 p k : (⟨2, ![n, L]⟩ : Shape).Idx) X).val = k.val := by
      intro X hX
      rw [hoff] at hX
      obtain rfl := List.mem_singleton.mp hX
      rfl
    exact e _ (List.getElem_mem _)

/-! ## Reads at one start index -/

/-- An entry in [0, 4096) is its own normalised index. -/
theorem wrap_id {w : BitVec 32} (h : w.toNat < 4096) :
    Scalar.select (IntOp.cmpi .slt w 0#32) (IntOp.addi w 4096#32) w = w := by
  have hn : ¬ IntOp.cmpi .slt w 0#32 = 1#1 := by
    rw [slt_iff_toNat (by omega) (by decide)]
    exact Nat.not_lt_zero _
  rw [eq_zero_of_ne_one hn, select_zero]

/-- and the clamp into a table of 4096 rows leaves it alone. -/
theorem clamp_id {w : BitVec 32} (h : w.toNat < 4096) : min w.toInt.toNat (4096 - 1) = w.toNat := by
  rw [toInt_eq_toNat_of_lt (by omega), Int.toNat_natCast]
  omega

/-- A rank-1 index written either way. -/
theorem ofFin_eq_ix1 {n : Nat} (r : Fin n) : Shape.Idx.ofFin r = ix1 r := by
  funext a
  match a with
  | ⟨0, _⟩ => rfl

section Stages

variable (x0 : (⟨S4096x128, .f32⟩ : BufTy).Contents (Elt Ideal)) (x1 : (⟨S4096, .i32⟩ : BufTy).Contents (Elt Ideal))
  (x2 : (⟨S500000x3, .i32⟩ : BufTy).Contents (Elt Ideal)) (x3 : (⟨S100, .f32⟩ : BufTy).Contents (Elt Ideal))

/-- The row gather of the embedding table where the start index is an entry in [0, 4096): that row. -/
theorem row_read (idx : IVec S500000x1 32) (t : Fin 500000) (k : Fin 128) {w : BitVec 32} (hw : w.toNat < 4096)
    (hidx : idx (ixP t) = w) :
    Host.gather gather_S4096x128_S500000x1_S500000x128_1_0_n_n_0_1_1128 x0 idx (ix2 t k)
      = Loss.embOf x0 (Loss.rowOf w) k := by
  subst hidx
  rw [gather_rows _ rfl rfl rfl rfl rfl x0 idx t k (by decide)]
  have hr : ∀ r : Fin 4096, r.val = (idx (ixP t)).toNat → x0 (ix2 r k) = Loss.embOf x0 (Loss.rowOf (idx (ixP t))) k := by
    intro r hr
    have : r = Loss.rowOf (idx (ixP t)) := Fin.ext (hr.trans (Loss.rowOf_val hw).symm)
    rw [this]; rfl
  exact hr _ (clamp_id hw)

/-- The label gather where the start index is an entry in [0, 4096): that row's label. -/
theorem label_read (idx : IVec S500000x1 32) (t : Fin 500000) {w : BitVec 32} (hw : w.toNat < 4096)
    (hidx : idx (ixP t) = w) :
    Host.gather gather_S4096_S500000x1_S500000_n_0_n_n_0_1_1 x1 idx (ix1 t) = x1 (ix1 (Loss.rowOf w)) := by
  subst hidx
  rw [← ofFin_eq_ix1 t, gather_take _ rfl rfl rfl rfl x1 idx t (by decide)]
  have hr : ∀ r : Fin 4096, r.val = (idx (ixP t)).toNat → x1 (Shape.Idx.ofFin r) = x1 (ix1 (Loss.rowOf (idx (ixP t)))) := by
    intro r hr
    have : r = Loss.rowOf (idx (ixP t)) := Fin.ext (hr.trans (Loss.rowOf_val hw).symm)
    rw [this, ofFin_eq_ix1]
  exact hr _ (clamp_id hw)

/-- The threshold gather of the class table: the entry at the start index read signed and clamped into [0, 99]. -/
theorem thresh_read (idx : IVec S500000x1 32) (t : Fin 500000) {w : BitVec 32} (hidx : idx (ixP t) = w) :
    Host.gather gather_S100_S500000x1_S500000_n_0_n_n_0_1_1 x3 idx (ix1 t)
      = x3 (ix1 ⟨min w.toInt.toNat 99, by omega⟩) := by
  subst hidx
  rw [← ofFin_eq_ix1 t, gather_take _ rfl rfl rfl rfl x3 idx t (by decide), ofFin_eq_ix1]

/-! ## The start indices: each is the triplet's own entry -/

theorem v7_at (hin : ∀ (t : Fin 500000) (j : Fin 3), (x2 (ix2 t j)).toNat < 4096) (t : Fin 500000) :
    val_main_v7 (F := Ideal) x2 (ixP t) = x2 (ix2 t (0 : Fin 3)) := by
  have hi : idx_main_v0 (idx_main_v1 (idx_main_v7 (ixP t))) = ix2 t (0 : Fin 3) := by
    funext a
    match a with
    | ⟨0, _⟩ => exact Fin.ext (Nat.div_one _)
    | ⟨1, _⟩ => rfl
  rw [val_main_v7_apply, val_main_v6_apply, val_main_v3_apply, val_main_v5_apply, val_main_v2_apply,
    val_main_v4_apply, val_main_c_apply, val_main_c_0_apply, val_main_v1_apply, val_main_v0_apply, hi]
  exact wrap_id (hin t 0)

theorem v16_at (hin : ∀ (t : Fin 500000) (j : Fin 3), (x2 (ix2 t j)).toNat < 4096) (t : Fin 500000) :
    val_main_v16 (F := Ideal) x2 (ixP t) = x2 (ix2 t (1 : Fin 3)) := by
  have hi : idx_main_v9 (idx_main_v10 (idx_main_v16 (ixP t))) = ix2 t (1 : Fin 3) := by
    funext a
    match a with
    | ⟨0, _⟩ => exact Fin.ext (Nat.div_one _)
    | ⟨1, _⟩ => rfl
  rw [val_main_v16_apply, val_main_v15_apply, val_main_v12_apply, val_main_v14_apply, val_main_v11_apply,
    val_main_v13_apply, val_main_c_1_apply, val_main_c_2_apply, val_main_v10_apply, val_main_v9_apply, hi]
  exact wrap_id (hin t 1)

theorem v25_at (hin : ∀ (t : Fin 500000) (j : Fin 3), (x2 (ix2 t j)).toNat < 4096) (t : Fin 500000) :
    val_main_v25 (F := Ideal) x2 (ixP t) = x2 (ix2 t (2 : Fin 3)) := by
  have hi : idx_main_v18 (idx_main_v19 (idx_main_v25 (ixP t))) = ix2 t (2 : Fin 3) := by
    funext a
    match a with
    | ⟨0, _⟩ => exact Fin.ext (Nat.div_one _)
    | ⟨1, _⟩ => rfl
  rw [val_main_v25_apply, val_main_v24_apply, val_main_v21_apply, val_main_v23_apply, val_main_v20_apply,
    val_main_v22_apply, val_main_c_3_apply, val_main_c_4_apply, val_main_v19_apply, val_main_v18_apply, hi]
  exact wrap_id (hin t 2)

theorem v46_at (hin : ∀ (t : Fin 500000) (j : Fin 3), (x2 (ix2 t j)).toNat < 4096) (t : Fin 500000) :
    val_main_v46 (F := Ideal) x2 (ixP t) = x2 (ix2 t (0 : Fin 3)) := by
  have hi : idx_main_v39 (idx_main_v40 (idx_main_v46 (ixP t))) = ix2 t (0 : Fin 3) := by
    funext a
    match a with
    | ⟨0, _⟩ => exact Fin.ext (Nat.div_one _)
    | ⟨1, _⟩ => rfl
  rw [val_main_v46_apply, val_main_v45_apply, val_main_v42_apply, val_main_v44_apply, val_main_v41_apply,
    val_main_v43_apply, val_main_c_8_apply, val_main_c_9_apply, val_main_v40_apply, val_main_v39_apply, hi]
  exact wrap_id (hin t 0)

/-! ## The three rows -/

theorem v8_at (hin : ∀ (t : Fin 500000) (j : Fin 3), (x2 (ix2 t j)).toNat < 4096) (t : Fin 500000) (k : Fin 128) :
    val_main_v8 (F := Ideal) x0 x2 (ix2 t k) = Loss.embOf x0 (Loss.rowOf (x2 (ix2 t (0 : Fin 3)))) k := by
  unfold val_main_v8
  exact row_read x0 _ t k (hin t 0) (v7_at x2 hin t)

theorem v17_at (hin : ∀ (t : Fin 500000) (j : Fin 3), (x2 (ix2 t j)).toNat < 4096) (t : Fin 500000) (k : Fin 128) :
    val_main_v17 (F := Ideal) x0 x2 (ix2 t k) = Loss.embOf x0 (Loss.rowOf (x2 (ix2 t (1 : Fin 3)))) k := by
  unfold val_main_v17
  exact row_read x0 _ t k (hin t 1) (v16_at x2 hin t)

theorem v26_at (hin : ∀ (t : Fin 500000) (j : Fin 3), (x2 (ix2 t j)).toNat < 4096) (t : Fin 500000) (k : Fin 128) :
    val_main_v26 (F := Ideal) x0 x2 (ix2 t k) = Loss.embOf x0 (Loss.rowOf (x2 (ix2 t (2 : Fin 3)))) k := by
  unfold val_main_v26
  exact row_read x0 _ t k (hin t 2) (v25_at x2 hin t)

/-! ## The two distances -/

theorem v29_at (hin : ∀ (t : Fin 500000) (j : Fin 3), (x2 (ix2 t j)).toNat < 4096) (t : Fin 500000) :
    val_main_v29 (F := Ideal) x0 x2 (ix1 t)
      = Loss.sqd (Loss.embOf x0 (Loss.rowOf (x2 (ix2 t (0 : Fin 3))))) (Loss.embOf x0 (Loss.rowOf (x2 (ix2 t (1 : Fin 3))))) := by
  have hz : ∀ i, val_main_cst (F := Ideal) i = 0 := fun _ => Ideal.ofBits_zero_f32
  rw [val_main_v29_apply, hz, zero_add]
  unfold Loss.sqd
  refine Finset.sum_congr rfl fun k _ => ?_
  have hi : idx_main_v29 (ix1 t) k = ix2 t k := by
    funext a
    match a with
    | ⟨0, _⟩ => rfl
    | ⟨1, _⟩ => rfl
  rw [hi, val_main_v28_apply, val_main_v27_apply, v8_at x0 x2 hin t k, v17_at x0 x2 hin t k]
  rfl

theorem v32_at (hin : ∀ (t : Fin 500000) (j : Fin 3), (x2 (ix2 t j)).toNat < 4096) (t : Fin 500000) :
    val_main_v32 (F := Ideal) x0 x2 (ix1 t)
      = Loss.dist (Loss.embOf x0 (Loss.rowOf (x2 (ix2 t (0 : Fin 3))))) (Loss.embOf x0 (Loss.rowOf (x2 (ix2 t (1 : Fin 3))))) := by
  rw [val_main_v32_apply, val_main_v31_apply, val_main_v30_apply, val_main_cst_5_apply, v29_at x0 x2 hin t]
  rfl

theorem v35_at (hin : ∀ (t : Fin 500000) (j : Fin 3), (x2 (ix2 t j)).toNat < 4096) (t : Fin 500000) :
    val_main_v35 (F := Ideal) x0 x2 (ix1 t)
      = Loss.sqd (Loss.embOf x0 (Loss.rowOf (x2 (ix2 t (0 : Fin 3))))) (Loss.embOf x0 (Loss.rowOf (x2 (ix2 t (2 : Fin 3))))) := by
  have hz : ∀ i, val_main_cst_6 (F := Ideal) i = 0 := fun _ => Ideal.ofBits_zero_f32
  rw [val_main_v35_apply, hz, zero_add]
  unfold Loss.sqd
  refine Finset.sum_congr rfl fun k _ => ?_
  have hi : idx_main_v35 (ix1 t) k = ix2 t k := by
    funext a
    match a with
    | ⟨0, _⟩ => rfl
    | ⟨1, _⟩ => rfl
  rw [hi, val_main_v34_apply, val_main_v33_apply, v8_at x0 x2 hin t k, v26_at x0 x2 hin t k]
  rfl

theorem v38_at (hin : ∀ (t : Fin 500000) (j : Fin 3), (x2 (ix2 t j)).toNat < 4096) (t : Fin 500000) :
    val_main_v38 (F := Ideal) x0 x2 (ix1 t)
      = Loss.dist (Loss.embOf x0 (Loss.rowOf (x2 (ix2 t (0 : Fin 3))))) (Loss.embOf x0 (Loss.rowOf (x2 (ix2 t (2 : Fin 3))))) := by
  rw [val_main_v38_apply, val_main_v37_apply, val_main_v36_apply, val_main_cst_7_apply, v35_at x0 x2 hin t]
  rfl

/-! ## The threshold -/

theorem v47_at (hin : ∀ (t : Fin 500000) (j : Fin 3), (x2 (ix2 t j)).toNat < 4096) (t : Fin 500000) :
    val_main_v47 (F := Ideal) x1 x2 (ix1 t) = x1 (ix1 (Loss.rowOf (x2 (ix2 t (0 : Fin 3))))) := by
  unfold val_main_v47
  exact label_read x1 _ t (hin t 0) (v46_at x2 hin t)

theorem v54_at (hin : ∀ (t : Fin 500000) (j : Fin 3), (x2 (ix2 t j)).toNat < 4096) (t : Fin 500000) :
    val_main_v54 (F := Ideal) x1 x2 x3 (ix1 t) = Loss.betOf x1 x3 (Loss.rowOf (x2 (ix2 t (0 : Fin 3)))) := by
  have hj : idx_main_v53 (ixP t) = ix1 t := by
    funext a
    match a with
    | ⟨0, _⟩ => rfl
  have hidx : val_main_v53 (F := Ideal) x1 x2 (ixP t)
      = Loss.wrapIdx 100#32 (x1 (ix1 (Loss.rowOf (x2 (ix2 t (0 : Fin 3)))))) := by
    rw [val_main_v53_apply, val_main_v52_apply, val_main_v49_apply, val_main_v51_apply, val_main_v48_apply,
      val_main_v50_apply, val_main_c_10_apply, val_main_c_11_apply, hj, v47_at x1 x2 hin t]
    rfl
  unfold val_main_v54
  rw [thresh_read x3 _ t hidx]
  rfl

/-! ## The two hinges -/

theorem v58_at (hin : ∀ (t : Fin 500000) (j : Fin 3), (x2 (ix2 t j)).toNat < 4096) (t : Fin 500000) :
    val_main_v58 (F := Ideal) x0 x1 x2 x3 (ix1 t) = Loss.posT x0 x1 x2 x3 t := by
  rw [val_main_v58_apply, val_main_v57_apply, val_main_v55_apply, val_main_v56_apply, val_main_cst_12_apply,
    val_main_call0_v0_apply, val_main_call0_cst_apply, v32_at x0 x2 hin t, v54_at x1 x2 x3 hin t]
  show max _ (Ideal.ofBits .f32 0x00000000#32) = _
  rw [Ideal.ofBits_zero_f32]
  rfl

theorem v62_at (hin : ∀ (t : Fin 500000) (j : Fin 3), (x2 (ix2 t j)).toNat < 4096) (t : Fin 500000) :
    val_main_v62 (F := Ideal) x0 x1 x2 x3 (ix1 t) = Loss.negT x0 x1 x2 x3 t := by
  rw [val_main_v62_apply, val_main_v61_apply, val_main_v59_apply, val_main_v60_apply, val_main_cst_13_apply,
    val_main_call1_v0_apply, val_main_call1_cst_apply, v38_at x0 x2 hin t, v54_at x1 x2 x3 hin t]
  show max _ (Ideal.ofBits .f32 0x00000000#32) = _
  rw [Ideal.ofBits_zero_f32]
  rfl

/-! ## The sums over the triplets -/

theorem v73_eq (hin : ∀ (t : Fin 500000) (j : Fin 3), (x2 (ix2 t j)).toNat < 4096) :
    val_main_v73 (F := Ideal) x0 x1 x2 x3 = fun _ => Loss.total x0 x1 x2 x3 := by
  funext i
  have hz : ∀ i, val_main_cst_18 (F := Ideal) i = 0 := fun _ => Ideal.ofBits_zero_f32
  rw [val_main_v73_apply, hz, zero_add, ← Equiv.sum_comp idxEquiv1.symm]
  unfold Loss.total
  refine Finset.sum_congr rfl fun t _ => ?_
  show val_main_v72 (F := Ideal) x0 x1 x2 x3 (ix1 t) = _
  rw [val_main_v72_apply, v58_at x0 x1 x2 x3 hin t, v62_at x0 x1 x2 x3 hin t]
  rfl

theorem v66_eq (hin : ∀ (t : Fin 500000) (j : Fin 3), (x2 (ix2 t j)).toNat < 4096) :
    val_main_v66 (F := Ideal) x0 x1 x2 x3 = fun _ => ∑ t : Fin 500000, Loss.ind (Loss.posT x0 x1 x2 x3 t) := by
  funext i
  have hz : ∀ i, val_main_cst_15 (F := Ideal) i = 0 := fun _ => Ideal.ofBits_zero_f32
  rw [val_main_v66_apply, hz, zero_add, ← Equiv.sum_comp idxEquiv1.symm]
  refine Finset.sum_congr rfl fun t _ => ?_
  show val_main_v65 (F := Ideal) x0 x1 x2 x3 (ix1 t) = _
  rw [val_main_v65_apply, val_main_v64_apply, val_main_v63_apply, val_main_cst_14_apply, v58_at x0 x1 x2 x3 hin t]
  show (((Ideal.cmp .ogt _ (Ideal.ofBits .f32 0x00000000#32)).toNat : ℝ) : EReal) = _
  rw [Ideal.ofBits_zero_f32]
  rfl

theorem v70_eq (hin : ∀ (t : Fin 500000) (j : Fin 3), (x2 (ix2 t j)).toNat < 4096) :
    val_main_v70 (F := Ideal) x0 x1 x2 x3 = fun _ => ∑ t : Fin 500000, Loss.ind (Loss.negT x0 x1 x2 x3 t) := by
  funext i
  have hz : ∀ i, val_main_cst_17 (F := Ideal) i = 0 := fun _ => Ideal.ofBits_zero_f32
  rw [val_main_v70_apply, hz, zero_add, ← Equiv.sum_comp idxEquiv1.symm]
  refine Finset.sum_congr rfl fun t _ => ?_
  show val_main_v69 (F := Ideal) x0 x1 x2 x3 (ix1 t) = _
  rw [val_main_v69_apply, val_main_v68_apply, val_main_v67_apply, val_main_cst_16_apply, v62_at x0 x1 x2 x3 hin t]
  show (((Ideal.cmp .ogt _ (Ideal.ofBits .f32 0x00000000#32)).toNat : ℝ) : EReal) = _
  rw [Ideal.ofBits_zero_f32]
  rfl

theorem v71_eq (hin : ∀ (t : Fin 500000) (j : Fin 3), (x2 (ix2 t j)).toNat < 4096) :
    val_main_v71 (F := Ideal) x0 x1 x2 x3 = fun _ => Loss.count x0 x1 x2 x3 := by
  funext i
  rw [val_main_v71_apply, v66_eq x0 x1 x2 x3 hin, v70_eq x0 x1 x2 x3 hin]
  rfl

end Stages

/-! ## The result -/

/-- The reference program's result is the loss. -/
theorem ref_answer (x0 : (⟨S4096x128, .f32⟩ : BufTy).Contents (Elt Ideal)) (x1 : (⟨S4096, .i32⟩ : BufTy).Contents (Elt Ideal))
    (x2 : (⟨S500000x3, .i32⟩ : BufTy).Contents (Elt Ideal)) (x3 : (⟨S100, .f32⟩ : BufTy).Contents (Elt Ideal))
    (hin : ∀ (t : Fin 500000) (j : Fin 3), (x2 (ix2 t j)).toNat < 4096) :
    val_main_v77 (F := Ideal) x0 x1 x2 x3 = Cert.Loss.answer x0 x1 x2 x3 := by
  unfold val_main_v77 val_main_v74 val_main_v76 val_main_v75
  rw [v73_eq x0 x1 x2 x3 hin, v71_eq x0 x1 x2 x3 hin]
  rfl

end Cert.ReferenceIdeal.RefValue

end
-- ==== Proof.PreFacts.lean ====
/-
  The precondition decoded: where the input predicate holds, every entry of the triplet array, read as a
  natural number, is below 4096. The predicate's last two conjuncts say that every entry is at least 0
  and below 4096 as signed 32-bit integers.
-/
import proofs.«420433_j24773371363774_2_alg».proof.Pre_finite_inputs
import proofs.«420433_j24773371363774_2_alg».proof.Proof.Gen.Pre_finite_inputs
import Idealize.ShloMosaic.Lib.ReduceAll
import Idealize.ShloMosaic.Lib.StableHlo.Predicate
import Idealize.ShloMosaic.Lib.ValueIdx

namespace Cert.PreFacts

open Idealize.ShloMosaic Idealize.ShloMosaic.ValueIdx

/-- A 32-bit word w with 0 ≤ w and w < 4096 as signed integers is, as a natural number, below 4096. -/
theorem toNat_lt_of_signed_range (w : BitVec 32) (h0 : IntOp.cmpi .sge w 0#32 = 1#1)
    (h1 : IntOp.cmpi .slt w 4096#32 = 1#1) : w.toNat < 4096 := by
  have h0' : BitVec.ofBool ((0#32 : BitVec 32).sle w) = 1#1 := h0
  have h1' : BitVec.ofBool (w.slt (4096#32 : BitVec 32)) = 1#1 := h1
  simp only [StableHlo.Predicate.ofBool_eq_one_iff, BitVec.sle, BitVec.slt, decide_eq_true_eq] at h0' h1'
  have hz : (0#32 : BitVec 32).toInt = 0 := by decide
  have hk : (4096#32 : BitVec 32).toInt = 4096 := by decide
  rw [hz] at h0'
  rw [hk] at h1'
  have hc := BitVec.toInt_eq_toNat_cond w
  split at hc <;> omega

/-- The rank-0 shape has one index. -/
instance : Subsingleton Cert.Pre_finite_inputs.S_.Idx := ⟨fun a b => funext fun d => d.elim0⟩

theorem triplets_in_range {F : FTy → Type} [FloatOps F] (a0 : FVec F Cert.Pre_finite_inputs.S4096x128 .f32)
    (a1 : IVec Cert.Pre_finite_inputs.S4096 32) (a2 : IVec Cert.Pre_finite_inputs.S500000x3 32)
    (a3 : FVec F Cert.Pre_finite_inputs.S100 .f32)
    (h : Cert.Pre_finite_inputs.fn (F := F) a0 a1 a2 a3 = fun _ => 1#1) (t : Fin 500000) (j : Fin 3) :
    (a2 (ix2 t j)).toNat < 4096 := by
  have h' := congrFun h ix0
  dsimp only [Cert.Pre_finite_inputs.fn, Cert.Pre_finite_inputs.fn_part1] at h'
  obtain ⟨h12, h15⟩ := IntOp.andi_eq_one.1 h'
  obtain ⟨_, h11⟩ := IntOp.andi_eq_one.1 h12
  have e0 := Host.reduce_andi_all _ _ _ _ ix0 h11 (ix2 t j)
  have e1 := Host.reduce_andi_all _ _ _ _ ix0 h15 (ix2 t j)
  exact toNat_lt_of_signed_range _ e0 e1

end Cert.PreFacts
-- ==== Proof.TileDefs.lean ====
/-
  One tile of 512 triplets as the kernel body sees it: the triplet block as rows, the table block as the
  128 embedding lanes and the threshold lane of each row, and what the tile adds to the running total and count.
-/
import proofs.«420433_j24773371363774_2_alg».proof.KernelIdeal
import proofs.«420433_j24773371363774_2_alg».proof.Proof.Loss

noncomputable section

namespace Cert.KernelIdeal.Tile

open Idealize.ShloMosaic Idealize.ShloMosaic.ValueIdx Cert.KernelIdeal

/-- Lanes 0..127 of table row i: the embedding. -/
def tabE (x1 : Vec Ideal S4096x129 .bf16) : Fin 4096 → Fin 128 → EReal :=
  fun i k => x1 (ix2 i (⟨k.val, by omega⟩ : Fin 129))

/-- Lane 128 of table row i: the row's threshold. -/
def tabβ (x1 : Vec Ideal S4096x129 .bf16) : Fin 4096 → EReal :=
  fun i => x1 (ix2 i (⟨128, by decide⟩ : Fin 129))

/-- A triplet block by row and column. -/
def rows (x0 : Vec Ideal S512x3 .i32) : Fin 512 → Fin 3 → BitVec 32 := fun r j => x0 (ix2 r j)

/-- What tile q adds to the total, from its triplet block and the table. -/
def tT (q : ℕ) (x0 : Vec Ideal S512x3 .i32) (x1 : Vec Ideal S4096x129 .bf16) : EReal :=
  Cert.Loss.tileTotal (tabE x1) (tabβ x1) (rows x0) (Cert.Loss.vldAt q)

/-- What tile q adds to the count. -/
def tC (q : ℕ) (x0 : Vec Ideal S512x3 .i32) (x1 : Vec Ideal S4096x129 .bf16) : EReal :=
  Cert.Loss.tileCount (tabE x1) (tabβ x1) (rows x0) (Cert.Loss.vldAt q)

end Cert.KernelIdeal.Tile

end
-- ==== Proof.Blocks.lean ====
/-
  The two input blocks a grid point works on, at their literal types, and each tile's contribution to a
  core's running total and count as a function of the launch memory.
-/
import proofs.«420433_j24773371363774_2_alg».proof.Proof.Gen.KernelIdeal.Frame
import proofs.«420433_j24773371363774_2_alg».proof.Proof.TileDefs

noncomputable section

namespace Cert.KernelIdeal.Blocks

open Idealize.ShloMosaic Idealize.ShloMosaic.ValueIdx Idealize.SL.Sem Cert.KernelIdeal Cert.KernelIdeal.Gen

variable (m : (ℓ : Loc nD τ sig) → Buf (Elt Ideal) ℓ)

/-- The triplet block at point t: rows t·512 … t·512 + 511 of the padded triplet array. -/
abbrev tblk (c : Dev nD) (t : Fin cfg0.N) : Vec Ideal S512x3 .i32 := iblk m c 0 t

/-- The table block at point t: the whole table. -/
abbrev tabblk (c : Dev nD) (t : Fin cfg0.N) : Vec Ideal S4096x129 .bf16 := iblk m c 1 t

/-- Tile q's contribution to the total on core c (nothing past the grid). -/
def tileT (c : Dev nD) (q : ℕ) : EReal :=
  if h : q < cfg0.N then Tile.tT q (tblk m c ⟨q, h⟩) (tabblk m c ⟨q, h⟩) else 0

/-- Tile q's contribution to the count. -/
def tileC (c : Dev nD) (q : ℕ) : EReal :=
  if h : q < cfg0.N then Tile.tC q (tblk m c ⟨q, h⟩) (tabblk m c ⟨q, h⟩) else 0

/-- What the region leaves in the [2, 1, 2] output array: entry (k, 0, 0) is core k's total over its 489 tiles,
    entry (k, 0, 1) its count. -/
def outArr (c : Dev nD) : S2x1x2.Idx → EReal := fun y =>
  if (y 2).val = 0 then ∑ i ∈ Finset.range 489, tileT m c ((y 0).val * 489 + i)
  else ∑ i ∈ Finset.range 489, tileC m c ((y 0).val * 489 + i)

/-- Every entry of every triplet block names a table row. -/
def BlocksInRange (c : Dev nD) : Prop :=
  ∀ (t : Fin cfg0.N) (r : Fin 512) (j : Fin 3), (tblk m c t (ix2 r j)).toNat < 4096

end Cert.KernelIdeal.Blocks

end
-- ==== Proof.HostPrefix.lean ====
/-
  The two input blocks of a grid point read off the four argument arrays.

  The triplet window reads rows t·512 … t·512 + 511 of the triplet array padded with 736 zero rows, so
  entry (r, j) of point t's block is triplet t·512 + r where that is below 500000 and the zero word above.
  The table window reads the whole table: lanes 0 … 127 of row i are embedding row i, and lane 128 is the
  class threshold at row i's label, the label normalised and clamped as a gather reads it.
-/
import proofs.«420433_j24773371363774_2_alg».proof.Proof.Blocks
import proofs.«420433_j24773371363774_2_alg».proof.Proof.Loss
import Idealize.ShloMosaic.Lib.Pipeline.Value
import Idealize.ShloMosaic.Lib.KernelVsHost
import Idealize.ShloMosaic.Lib.StableHlo.Predicate
import Idealize.ShloMosaic.Lib.ValueIdx

noncomputable section

namespace Cert.KernelIdeal.Prefix

open Idealize.ShloMosaic Idealize.ShloMosaic.ValueIdx Idealize.SL.Sem Cert.KernelIdeal Cert.KernelIdeal.Gen
  Cert.KernelIdeal.Blocks

variable (m : (ℓ : Loc nD τ sig) → Buf (Elt Ideal) ℓ)

/-- The two input windows' block indices: the triplet window's block number is the point's number (core × 489 +
    step) with column block 0; the table window always reads block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = 0)

/-- The padded triplet array as the region finds it: the triplet argument with 736 rows of the zero word below. -/
theorem padded_eq (c : Dev nD) :
    (V m c main_v0 : S500736x3.Idx → BitVec 32)
      = pad S500736x3 ![0, 0] ![736, 0] ![0, 0]
          (m ((c.tc : Thread nD τ).loc main_arg2) : S500000x3.Idx → BitVec 32) (constantI S_ 32 0#32)
          pads_S500000x3_S500736x3_07360_000 h_S_ := by
  dsimp only [Gen.V, Gen.V0]
  simp only [Gen.hostOps0, Gen.hostOps0_1, Gen.hostOps0_2, List.flatten_cons, List.flatten_nil, List.append_nil,
    List.cons_append, List.nil_append]
  after_results
  rfl

/-- Entry (r, j) of point t's triplet block is entry (t·512 + r, j) of the padded array. -/
theorem tblk_read (c : Dev nD) (t : Fin cfg0.N) (r : Fin 512) (j : Fin 3) :
    tblk m c t (ix2 r j)
      = (V m c main_v0 : S500736x3.Idx → BitVec 32) (ix2 ⟨t.val * 512 + r.val, by
          have := t.isLt; have := r.isLt; have : cfg0.N = 978 := N_0; omega⟩ j) := by
  obtain ⟨e0, e1, -, -⟩ := index_facts t
  show V m c main_v0 (((cfg0.win 0).blk t).view.emb (ix2 r j)) = _
  refine congrArg (V m c main_v0) (funext fun a => Fin.ext ?_)
  match a with
  | ⟨0, _⟩ => show win0_0.index t (0 : Fin 2) * 512 + 1 * r.val = t.val * 512 + r.val; omega
  | ⟨1, _⟩ => show win0_0.index t (1 : Fin 2) * 3 + 1 * j.val = j.val; omega

/-- Entry (r, j) of point t's triplet block is triplet t·512 + r's entry j where t·512 + r < 500000, and the zero
    word on the padding rows. -/
theorem tblk_apply (c : Dev nD) (t : Fin cfg0.N) (r : Fin 512) (j : Fin 3) :
    tblk m c t (ix2 r j)
      = if h : t.val * 512 + r.val < 500000 then
          (m ((c.tc : Thread nD τ).loc main_arg2) : S500000x3.Idx → BitVec 32) (ix2 ⟨t.val * 512 + r.val, h⟩ j)
        else 0#32 := by
  refine (tblk_read m c t r j).trans ?_
  refine (congrFun (padded_eq m c) _).trans ?_
  by_cases h : t.val * 512 + r.val < 500000
  · rw [dif_pos h]
    refine pad_apply_of_inside _ _ _ _ _ _ _ _ (ix2 ⟨t.val * 512 + r.val, h⟩ j) (fun a => ?_)
    match a with
    | ⟨0, _⟩ => show t.val * 512 + r.val = 0 + (t.val * 512 + r.val) * (0 + 1); omega
    | ⟨1, _⟩ => show j.val = 0 + j.val * (0 + 1); omega
  · rw [dif_neg h]
    refine (pad_apply_of_not_inside _ _ _ _ _ _ _ _ (0 : Fin 2) ?_).trans rfl
    rintro ⟨-, -, h3⟩
    have h3' : (t.val * 512 + r.val - 0) / (0 + 1) < 500000 := h3
    simp only [Nat.sub_zero, Nat.zero_add, Nat.div_one] at h3'
    exact h h3'

/-- Entry (i, d) of the table block, at any point, is entry (i, d) of the table. -/
theorem tabblk_read (c : Dev nD) (t : Fin cfg0.N) (i : Fin 4096) (d : Fin 129) :
    tabblk m c t (ix2 i d) = (V m c main_v11 : S4096x129.Idx → EReal) (ix2 i d) := by
  obtain ⟨-, -, e0, e1⟩ := index_facts t
  show V m c main_v11 (((cfg0.win 1).blk t).view.emb (ix2 i d)) = _
  refine congrArg (V m c main_v11) (funext fun a => Fin.ext ?_)
  match a with
  | ⟨0, _⟩ => show win0_1.index t (0 : Fin 2) * 4096 + 1 * i.val = i.val; omega
  | ⟨1, _⟩ => show win0_1.index t (1 : Fin 2) * 129 + 1 * d.val = d.val; omega

/-- The labels normalised (a negative label counts from the end of the 100 classes), as a column of start indices. -/
def labCol (x1 : IVec S4096 32) : IVec S4096x1 32 :=
  broadcastInDim S4096x1 ![0] bcast_S4096_S4096x1_0
    (select (cmpi .slt x1 (broadcastInDim S4096 ![] bcast_S_S4096 (constantI S_ 32 0#32)))
      (addi x1 (broadcastInDim S4096 ![] bcast_S_S4096 (constantI S_ 32 100#32))) x1)

/-- The table the kernel reads, as a function of the embedding, label and threshold arrays: the embedding's 128 lanes
    and, as lane 128, the threshold gathered at each row's normalised label. -/
def tableOf (x0 : FVec Ideal S4096x128 .f32) (x1 : IVec S4096 32) (x3 : FVec Ideal S100 .f32) : FVec Ideal S4096x129 .bf16 :=
  concatenate S4096x129 1
    [⟨S4096x128, (truncf .bf16 x0 bitsLt_bf16_f32 : FVec Ideal S4096x128 .bf16)⟩,
     ⟨S4096x1, (broadcastInDim S4096x1 ![0] bcast_S4096_S4096x1_0
        (truncf .bf16 (Host.gather gather_S100_S4096x1_S4096_n_0_n_n_0_1_1 x3 (labCol x1) : FVec Ideal S4096 .f32)
          bitsLt_bf16_f32 : FVec Ideal S4096 .bf16) : FVec Ideal S4096x1 .bf16)⟩]
    concatenates_S4096x128_S4096x1_S4096x129_d1

/-- The table as the region finds it. -/
theorem table_eq (c : Dev nD) :
    (V m c main_v11 : S4096x129.Idx → EReal)
      = tableOf (m ((c.tc : Thread nD τ).loc main_arg0)) (m ((c.tc : Thread nD τ).loc main_arg1))
          (m ((c.tc : Thread nD τ).loc main_arg3)) := by
  dsimp only [Gen.V, Gen.V0]
  simp only [Gen.hostOps0, Gen.hostOps0_1, Gen.hostOps0_2, List.flatten_cons, List.flatten_nil, List.append_nil,
    List.cons_append, List.nil_append]
  after_results
  rfl

/-- Row i of the start-index column is row i's label, normalised. -/
theorem labCol_apply (x1 : IVec S4096 32) (i : Fin 4096) :
    labCol x1 (StableHlo.Predicate.ixP i) = Cert.Loss.wrapIdx 100#32 (x1 (ix1 i)) := by
  unfold labCol
  refine (broadcastInDim_apply _ _ _ _ (ix1 i) (fun a => ?_)).trans rfl
  match a with
  | ⟨0, _⟩ => show i.val = if (4096 : ℕ) = 1 then 0 else i.val; rw [if_neg (by decide)]

/-- Lanes 0 … 127 of the table are the embedding. -/
theorem tableOf_apply_emb (x0 : FVec Ideal S4096x128 .f32) (x1 : IVec S4096 32) (x3 : FVec Ideal S100 .f32)
    (i : Fin 4096) (d : Fin 129) (h : d.val < 128) :
    tableOf x0 x1 x3 (ix2 i d) = x0 (ix2 i ⟨d.val, h⟩) := by
  unfold tableOf
  refine (concatenate_pair_apply_left (t := S4096x129) (s₁ := S4096x128) (s₂ := S4096x1) (1 : Fin 2) _ _ _ (ix2 i d) rfl
    (ix2 i (⟨d.val, h⟩ : Fin 128) : S4096x128.Idx) (fun b => ?_)).trans rfl
  match b with
  | ⟨0, _⟩ => rfl
  | ⟨1, _⟩ => rfl

/-- Lane 128 of the table is the threshold at the row's label, the label normalised and clamped into [0, 99]. -/
theorem tableOf_apply_beta (x0 : FVec Ideal S4096x128 .f32) (x1 : IVec S4096 32) (x3 : FVec Ideal S100 .f32)
    (i : Fin 4096) (d : Fin 129) (h : ¬ d.val < 128) :
    tableOf x0 x1 x3 (ix2 i d) = Cert.Loss.betOf x1 x3 i := by
  have hd : d.val = 128 := by have := d.isLt; omega
  unfold tableOf
  refine (concatenate_pair_apply_right (t := S4096x129) (s₁ := S4096x128) (s₂ := S4096x1) (1 : Fin 2) _ _ _ (ix2 i d) rfl rfl
    (ix2 i (0 : Fin 1) : S4096x1.Idx) (fun b hb => ?_) ?_).trans ?_
  · match b with
    | ⟨0, _⟩ => rfl
    | ⟨1, _⟩ => exact absurd rfl hb
  · show (0 : ℕ) + 128 = d.val
    omega
  refine (broadcastInDim_apply _ _ _ _ (ix1 i) (fun a => ?_)).trans ?_
  · match a with
    | ⟨0, _⟩ => show i.val = if (4096 : ℕ) = 1 then 0 else i.val; rw [if_neg (by decide)]
  have e1 : (ix1 i : S4096.Idx) = Shape.Idx.ofFin i := funext fun a => by
    match a with
    | ⟨0, _⟩ => rfl
  show Host.gather gather_S100_S4096x1_S4096_n_0_n_n_0_1_1 x3 (labCol x1) (ix1 i) = _
  rw [e1, StableHlo.Predicate.gather_take gather_S100_S4096x1_S4096_n_0_n_n_0_1_1 rfl rfl rfl rfl x3 (labCol x1) i (by decide)]
  unfold Cert.Loss.betOf
  refine congrArg x3 (funext fun a => Fin.ext ?_)
  match a with
  | ⟨0, _⟩ =>
    show min (labCol x1 (StableHlo.Predicate.ixP i)).toInt.toNat (100 - 1)
      = min (Cert.Loss.wrapIdx 100#32 (x1 (ix1 i))).toInt.toNat 99
    rw [labCol_apply]

/-- Entry (i, d) of the table block at any point: embedding row i's lane d for d < 128, and for d = 128 the class
    threshold at row i's label, the label normalised and clamped into [0, 99]. -/
theorem tabblk_apply (c : Dev nD) (t : Fin cfg0.N) (i : Fin 4096) (d : Fin 129) :
    tabblk m c t (ix2 i d)
      = if h : d.val < 128 then
          (m ((c.tc : Thread nD τ).loc main_arg0) : S4096x128.Idx → EReal) (ix2 i ⟨d.val, h⟩)
        else Cert.Loss.betOf (m ((c.tc : Thread nD τ).loc main_arg1)) (m ((c.tc : Thread nD τ).loc main_arg3)) i := by
  refine (tabblk_read m c t i d).trans ?_
  refine (congrFun (table_eq m c) _).trans ?_
  by_cases h : d.val < 128
  · rw [dif_pos h]
    exact tableOf_apply_emb _ _ _ i d h
  · rw [dif_neg h]
    exact tableOf_apply_beta _ _ _ i d h

end Cert.KernelIdeal.Prefix

end
-- ==== Proof.Pieces.lean ====
/-
  What one grid point leaves in the two running sums and, at the last point of a core's row, in the output
  block — as values of the body's arithmetic on the point's two input blocks and on what the point before left.

  A point adds its tile's total to the first running sum and its tile's count to the second; the first point
  of a row starts both from zero, the last point of a row also writes the pair (total, count) out.
-/
import proofs.«420433_j24773371363774_2_alg».proof.Proof.Gen.KernelIdeal.Frame
import Idealize.ShloMosaic.Lib.Pipeline.Value
import Idealize.ShloMosaic.Lib.Tactic

noncomputable section

namespace Cert.KernelIdeal.Accum

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first running sum after a point: what it held before, plus the point's tile total. -/
abbrev stepT (i : grid0.Coords) (x0 : Vec F S512x3 .i32) (x1 : Vec F S4096x129 .bf16) (p : Vec F S1x1 .f32) : Vec F S1x1 .f32 :=
  k0_pay1 (k0_pay17 (BitVec.ofNat 32 (i 0).val) (BitVec.ofNat 32 (i 1).val) (k0_pay10 x0 x1) (k0_pay11 x0 x1) (k0_pay12 x0 x1) p)

/-- The second running sum after a point: what it held before, plus the point's tile count. -/
abbrev stepC (i : grid0.Coords) (x0 : Vec F S512x3 .i32) (x1 : Vec F S4096x129 .bf16) (p : Vec F S1x1 .f32) : Vec F S1x1 .f32 :=
  k0_pay2 (k0_pay16 (BitVec.ofNat 32 (i 0).val) (BitVec.ofNat 32 (i 1).val) (k0_pay10 x0 x1) (k0_pay11 x0 x1) (k0_pay12 x0 x1)) p

/-! ## The first point of a row: both sums start from zero -/

theorem sout_A_0 (c : Dev nD) (i : grid0.Coords) (arg2 : Memref sig .tc .vmem S512x3 .i32) (harg2 : arg2.IsWhole) (arg3 : Memref sig .tc .vmem S4096x129 .bf16) (harg3 : arg3.IsWhole) (arg4 : Memref sig .tc .vmem S1x1x2 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S512x3 .i32) (x1 : Vec F S4096x129 .bf16) :
    sout0_A_0 c i arg2 harg2 arg3 harg3 arg4 harg4 arg5 harg5 arg6 harg6 hc0 hc1 x0 x1 = stepT i x0 x1 k0_pay4 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S512x3) hz2, View.ld_unit_zero (S := S4096x129) hz2, View.ld_unit_zero (S := S1x1) hz2]

theorem sout_A_1 (c : Dev nD) (i : grid0.Coords) (arg2 : Memref sig .tc .vmem S512x3 .i32) (harg2 : arg2.IsWhole) (arg3 : Memref sig .tc .vmem S4096x129 .bf16) (harg3 : arg3.IsWhole) (arg4 : Memref sig .tc .vmem S1x1x2 .f32) (harg4 : arg4.IsWhole) (arg5 : Memref sig .tc .vmem S1x1 .f32) (harg5 : arg5.IsWhole) (arg6 : Memref sig .tc .vmem S1x1 .f32) (harg6 : arg6.IsWhole) (hc0 : cond0_0 i) (hc1 : ¬cond0_1 i)
    (x0 : Vec F S512x3 .i32) (x1 : Vec F S4096x129 .bf16) :
    sout0_A_1 c i arg2 harg2 arg3 harg3 arg4 harg4 arg5 harg5 arg6 harg6 hc0 hc1 x0 x1 = stepC i x0 x1 k0_pay5 := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, View.ld_unit_zero (S := S512x3) hz2, View.ld_unit_zero (S := S4096x129) hz2, View.ld_unit_zero (S := S1x1) hz2]

/-! ## A middle point: both sums continue from what the point before left -/

theorem sout_B_0 (c : Dev nD) (i : grid0.Coords) (arg2 : Memref sig .tc .vmem S512x3 .i32) (harg2 : arg2.IsWhole) (arg3 : Memref sig .tc .vmem S4096x129 .bf16) (harg3 : arg3.IsWhole) (arg4 : Memref sig .tc .vmem S1x1x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S512x3 .i32) (x1 : Vec F S4096x129 .bf16) (xs0 : Vec F S1x1 .f32) (xs1 : Vec F S1x1 .f32) :
    sout0_B_0 c i arg2 harg2 arg3 harg3 arg4 harg4 arg5 harg5 arg6 harg6 hc0 hc1 x0 x1 xs0 xs1 = stepT i x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero (S := S1x1) hz2]
  simp only [View.readAt_eq_ld, harg2.read_unread, harg3.read_unread, harg5.read_unread, View.ld_unit_zero (S := S512x3) hz2, View.ld_unit_zero (S := S4096x129) hz2, View.ld_unit_zero (S := S1x1) hz2]

theorem sout_B_1 (c : Dev nD) (i : grid0.Coords) (arg2 : Memref sig .tc .vmem S512x3 .i32) (harg2 : arg2.IsWhole) (arg3 : Memref sig .tc .vmem S4096x129 .bf16) (harg3 : arg3.IsWhole) (arg4 : Memref sig .tc .vmem S1x1x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : ¬cond0_1 i)
    (x0 : Vec F S512x3 .i32) (x1 : Vec F S4096x129 .bf16) (xs0 : Vec F S1x1 .f32) (xs1 : Vec F S1x1 .f32) :
    sout0_B_1 c i arg2 harg2 arg3 harg3 arg4 harg4 arg5 harg5 arg6 harg6 hc0 hc1 x0 x1 xs0 xs1 = stepC i x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero (S := S1x1) hz2]
  simp only [View.readAt_eq_ld, harg2.read_unread, harg3.read_unread, harg6.read_unread, View.ld_unit_zero (S := S512x3) hz2, View.ld_unit_zero (S := S4096x129) hz2, View.ld_unit_zero (S := S1x1) hz2]

/-! ## The last point of a row: the sums continue, and the pair is written out -/

theorem sout_C_0 (c : Dev nD) (i : grid0.Coords) (arg2 : Memref sig .tc .vmem S512x3 .i32) (harg2 : arg2.IsWhole) (arg3 : Memref sig .tc .vmem S4096x129 .bf16) (harg3 : arg3.IsWhole) (arg4 : Memref sig .tc .vmem S1x1x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S512x3 .i32) (x1 : Vec F S4096x129 .bf16) (xs0 : Vec F S1x1 .f32) (xs1 : Vec F S1x1 .f32) :
    sout0_C_0 c i arg2 harg2 arg3 harg3 arg4 harg4 arg5 harg5 arg6 harg6 hc0 hc1 x0 x1 xs0 xs1 = stepT i x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero (S := S1x1) hz2]
  simp only [View.readAt_eq_ld, harg2.read_unread, harg3.read_unread, harg5.read_unread, View.ld_unit_zero (S := S512x3) hz2, View.ld_unit_zero (S := S4096x129) hz2, View.ld_unit_zero (S := S1x1) hz2]

theorem sout_C_1 (c : Dev nD) (i : grid0.Coords) (arg2 : Memref sig .tc .vmem S512x3 .i32) (harg2 : arg2.IsWhole) (arg3 : Memref sig .tc .vmem S4096x129 .bf16) (harg3 : arg3.IsWhole) (arg4 : Memref sig .tc .vmem S1x1x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S512x3 .i32) (x1 : Vec F S4096x129 .bf16) (xs0 : Vec F S1x1 .f32) (xs1 : Vec F S1x1 .f32) :
    sout0_C_1 c i arg2 harg2 arg3 harg3 arg4 harg4 arg5 harg5 arg6 harg6 hc0 hc1 x0 x1 xs0 xs1 = stepC i x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero (S := S1x1) hz2]
  simp only [View.readAt_eq_ld, harg2.read_unread, harg3.read_unread, harg6.read_unread, View.ld_unit_zero (S := S512x3) hz2, View.ld_unit_zero (S := S4096x129) hz2, View.ld_unit_zero (S := S1x1) hz2]

theorem out_C_2 (c : Dev nD) (i : grid0.Coords) (arg2 : Memref sig .tc .vmem S512x3 .i32) (harg2 : arg2.IsWhole) (arg3 : Memref sig .tc .vmem S4096x129 .bf16) (harg3 : arg3.IsWhole) (arg4 : Memref sig .tc .vmem S1x1x2 .f32) (harg4 : arg4.IsWhole) (arg5 : Memref sig .tc .vmem S1x1 .f32) (harg5 : arg5.IsWhole) (arg6 : Memref sig .tc .vmem S1x1 .f32) (harg6 : arg6.IsWhole) (hc0 : ¬cond0_0 i) (hc1 : cond0_1 i)
    (x0 : Vec F S512x3 .i32) (x1 : Vec F S4096x129 .bf16) (xs0 : Vec F S1x1 .f32) (xs1 : Vec F S1x1 .f32) :
    out0_C_2 c i arg2 harg2 arg3 harg3 arg4 harg4 arg5 harg5 arg6 harg6 hc0 hc1 x0 x1 xs0 xs1 = k0_pay3 (stepT i x0 x1 xs0) (stepC i x0 x1 xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero (S := S1x1x2) hz3]
  simp only [View.readCov_unit_zero (S := S1x1) _ hz2, View.readAt_eq_ld, harg2.read_unread, harg3.read_unread, harg5.read_unread, harg6.read_unread, View.ld_unit_zero (S := S512x3) hz2, View.ld_unit_zero (S := S4096x129) hz2, View.ld_unit_zero (S := S1x1) hz2]

end Cert.KernelIdeal.Accum

end
-- ==== Proof.LibRowCasts.lean ====
/-
  Four layout operations read at an index.

  * A rank-3 array `[a, b, c]` cast to `[n, c]` with `n = a · b` merges its two leading axes: row
    `p · b + q` of the matrix is row `(p, q)` of the array; and the cast back splits them.
  * A vector `[a]` cast to the column `[a, 1]` (what a sum with kept dimensions produces).
  * A column `[a, 1]` broadcast to `[a, b]`: every lane of row `i` is the column's entry `i`.
-/
import Idealize.ShloMosaic.Lib.Pipeline.Value
import Idealize.ShloMosaic.Lib.ValueIdx

namespace Idealize.ShloMosaic.RowCasts

open Idealize.ShloMosaic Idealize.ShloMosaic.ValueIdx

variable {α : Type}

/-- `[a, b, c]` cast to `[n, c]`, read at row `r = p · b + q` and lane `d`: the array at `(p, q, d)`. -/
theorem shapeCast_merge_apply {a b c n : ℕ} (x : (⟨3, ![a, b, c]⟩ : Shape).Idx → α)
    (h : (⟨3, ![a, b, c]⟩ : Shape).ShapeCasts ⟨2, ![n, c]⟩) (p : Fin a) (q : Fin b) (d : Fin c) (r : Fin n)
    (hr : r.val = p.val * b + q.val) :
    shapeCast ⟨2, ![n, c]⟩ x h (ix2 r d) = x (ix3 p q d) :=
  shapeCast_apply x h _ _ (by
    rw [Shape.rowMajor_val_three, Shape.rowMajor_val_two]
    show (p.val * b + q.val) * c + d.val = r.val * c + d.val
    rw [hr])

/-- `[n, c]` cast to `[a, b, c]`, read at `(p, q, d)`: the matrix at row `r = p · b + q`, lane `d`. -/
theorem shapeCast_split_apply {a b c n : ℕ} (y : (⟨2, ![n, c]⟩ : Shape).Idx → α)
    (h : (⟨2, ![n, c]⟩ : Shape).ShapeCasts ⟨3, ![a, b, c]⟩) (p : Fin a) (q : Fin b) (d : Fin c) (r : Fin n)
    (hr : r.val = p.val * b + q.val) :
    shapeCast ⟨3, ![a, b, c]⟩ y h (ix3 p q d) = y (ix2 r d) :=
  shapeCast_apply y h _ _ (by
    rw [Shape.rowMajor_val_three, Shape.rowMajor_val_two]
    show r.val * c + d.val = (p.val * b + q.val) * c + d.val
    rw [hr])

/-- A vector cast to a column reads, at `(i, u)`, the vector at `i`. -/
theorem shapeCast_column_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    rw [Shape.rowMajor_val_one, Shape.rowMajor_val_two]
    show i.val = i.val * 1 + u.val
    have := u.isLt
    omega)

/-- A column broadcast over the lanes reads, at `(i, j)`, the column at `(i, 0)`. -/
theorem broadcastTo_column_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.RowCasts
-- ==== Proof.TileGather.lean ====
/-
  A one-hot product read as a table row.

  For a column of row numbers idx : [512, 1] and the table x1 : [4096, 129], the 0/1 matrix
  H[r, k] = [k = idx r] times the table, accumulated from zero, is at (r, c)
      ∑_k H[r, k] · x1[k, c] = x1[idx r, c]
  whenever idx r names a row of the table: every term but one is 0 · x = 0 and the remaining one is
  1 · x = x, which hold for every extended real.
-/
import proofs.«420433_j24773371363774_2_alg».proof.Proof.Gen.KernelIdeal.Skeleton
import proofs.«420433_j24773371363774_2_alg».proof.Proof.TileDefs
import proofs.«420433_j24773371363774_2_alg».proof.Proof.LibRowCasts
import Idealize.ShloMosaic.PureOps.Ideal.Laws
import Idealize.ShloMosaic.Lib.ValueIdx
import Idealize.ShloMosaic.Lib.Pipeline.Value
import Idealize.ShloMosaic.Lib.StableHlo.Predicate

noncomputable section

namespace Cert.KernelIdeal.Tile

open Idealize.ShloMosaic Idealize.ShloMosaic.ValueIdx Idealize.ShloMosaic.RowCasts Cert.KernelIdeal Cert.KernelIdeal.Gen

/-! ## The product's operand indices, axis by axis -/

theorem lhs_gather_0 (i : S512x129.Idx) (q : dot_S512x4096_S4096x129_S512x129_1_0_0_1_n_n.contr.Idx) :
    (dot_S512x4096_S4096x129_S512x129_1_0_0_1_n_n.lhsIdx i q 0).val = (i 0).val := by
  unfold DotDims.lhsIdx
  rw [dif_neg (show ¬(0 : Fin S512x4096.rank) ∈ dot_S512x4096_S4096x129_S512x129_1_0_0_1_n_n.lhsBatch by decide),
    dif_pos (show (0 : Fin S512x4096.rank) ∈ dot_S512x4096_S4096x129_S512x129_1_0_0_1_n_n.lhsNonContracting by decide)]
  rfl

theorem lhs_gather_1 (i : S512x129.Idx) (q : dot_S512x4096_S4096x129_S512x129_1_0_0_1_n_n.contr.Idx) :
    (dot_S512x4096_S4096x129_S512x129_1_0_0_1_n_n.lhsIdx i q 1).val = (q ⟨0, by decide⟩).val :=
  dot_S512x4096_S4096x129_S512x129_1_0_0_1_n_n.lhsIdx_val_of_single rfl i q

theorem rhs_gather_0 (i : S512x129.Idx) (q : dot_S512x4096_S4096x129_S512x129_1_0_0_1_n_n.contr.Idx) :
    (dot_S512x4096_S4096x129_S512x129_1_0_0_1_n_n.rhsIdx i q 0).val = (q ⟨0, by decide⟩).val :=
  dot_S512x4096_S4096x129_S512x129_1_0_0_1_n_n.rhsIdx_val_of_single rfl i q

theorem rhs_gather_1 (i : S512x129.Idx) (q : dot_S512x4096_S4096x129_S512x129_1_0_0_1_n_n.contr.Idx) :
    (dot_S512x4096_S4096x129_S512x129_1_0_0_1_n_n.rhsIdx i q 1).val = (i 1).val := by
  unfold DotDims.rhsIdx
  rw [dif_neg (show ¬(1 : Fin S4096x129.rank) ∈ dot_S512x4096_S4096x129_S512x129_1_0_0_1_n_n.rhsBatch by decide),
    dif_pos (show (1 : Fin S4096x129.rank) ∈ dot_S512x4096_S4096x129_S512x129_1_0_0_1_n_n.rhsNonContracting by decide)]
  rfl

/-! ## The 0/1 factor -/

/-- A widened comparison bit read as a number is 1 or 0. -/
theorem bit_toReal (b : BitVec 1) :
    (FloatOps.sitofp (F := Ideal) .f32 (b.setWidth 32) : EReal) = if b = 1#1 then 1 else 0 := by
  rcases BitVec.eq_zero_or_eq_one b with rfl | rfl
  · show (((0#1 : BitVec 1).setWidth 32).toInt : ℝ) = (_ : EReal)
    simp
  · show (((1#1 : BitVec 1).setWidth 32).toInt : ℝ) = (_ : EReal)
    simp

/-- A lane number below 4096 equals a 32-bit word exactly when it is the word's value. -/
theorem ofNat_eq_iff (k : ℕ) (hk : k < 4096) (w : BitVec 32) : BitVec.ofNat 32 k = w ↔ k = w.toNat := by
  constructor
  · rintro rfl
    simp [BitVec.toNat_ofNat]; omega
  · intro h
    apply BitVec.eq_of_toNat_eq
    simp [BitVec.toNat_ofNat]; omega

/-- The 0/1 matrix of a column of row numbers, at (r, k). -/
theorem onehot_apply (idx : IVec S512x1 32) (r : Fin 512) (k : Fin 4096) :
    (truncf .bf16 (sitofp (F := Ideal) .f32 (extui 32 (cmpi .eq (iota .tc S512x4096 32 [1] iota_S512x4096_d1_w32)
      (broadcastTo S512x4096 idx broadcasts_S512x1_S512x4096)) natLt_1_32)) bitsLt_bf16_f32 : FVec Ideal S512x4096 .bf16) (ix2 r k)
      = if k.val = (idx (ix2 r (0 : Fin 1))).toNat then 1 else 0 := by
  rw [truncf_apply, sitofp_apply, extui_apply]
  show FloatOps.sitofp (F := Ideal) .f32 ((IntOp.cmpi .eq (iota .tc S512x4096 32 [1] iota_S512x4096_d1_w32 (ix2 r k))
      (broadcastTo S512x4096 idx broadcasts_S512x1_S512x4096 (ix2 r k))).setWidth 32) = _
  rw [bit_toReal, iota_single_apply, broadcastTo_column_apply]
  show (if IntOp.cmpi .eq (BitVec.ofNat 32 k.val) (idx (ix2 r (0 : Fin 1))) = 1#1 then (1 : EReal) else 0) = _
  by_cases hk : k.val = (idx (ix2 r (0 : Fin 1))).toNat
  · rw [if_pos hk, if_pos (StableHlo.Predicate.cmpi_eq_iff.mpr ((ofNat_eq_iff k.val k.isLt _).mpr hk))]
  · rw [if_neg hk, if_neg (fun h => hk ((ofNat_eq_iff k.val k.isLt _).mp (StableHlo.Predicate.cmpi_eq_iff.mp h)))]

/-! ## The product -/

/-- The one-hot product at (r, c) is the table at (idx r, c). -/
theorem gather_apply (idx : IVec S512x1 32) (x1 : Vec Ideal S4096x129 .bf16) (r : Fin 512) (c : Fin 129)
    (h : (idx (ix2 r (0 : Fin 1))).toNat < 4096) :
    matmul dot_S512x4096_S4096x129_S512x129_1_0_0_1_n_n none
      (truncf .bf16 (sitofp (F := Ideal) .f32 (extui 32 (cmpi .eq (iota .tc S512x4096 32 [1] iota_S512x4096_d1_w32)
        (broadcastTo S512x4096 idx broadcasts_S512x1_S512x4096)) natLt_1_32)) bitsLt_bf16_f32)
      (k0_pay7 x1) (constant S512x129 .f32 0x00000000#32) (ix2 r c)
      = x1 (ix2 (Cert.Loss.rowOf (idx (ix2 r (0 : Fin 1)))) c) := by
  simp only [matmul]
  rw [Ideal.matmul_constant_zero_apply,
    ← Equiv.sum_comp (contrEquiv1 dot_S512x4096_S4096x129_S512x129_1_0_0_1_n_n 4096 rfl rfl).symm]
  have key : ∀ k : Fin 4096,
      (truncf .bf16 (sitofp (F := Ideal) .f32 (extui 32 (cmpi .eq (iota .tc S512x4096 32 [1] iota_S512x4096_d1_w32)
        (broadcastTo S512x4096 idx broadcasts_S512x1_S512x4096)) natLt_1_32)) bitsLt_bf16_f32 : FVec Ideal S512x4096 .bf16)
          (dot_S512x4096_S4096x129_S512x129_1_0_0_1_n_n.lhsIdx (ix2 r c)
            ((contrEquiv1 dot_S512x4096_S4096x129_S512x129_1_0_0_1_n_n 4096 rfl rfl).symm k))
        * (k0_pay7 x1) (dot_S512x4096_S4096x129_S512x129_1_0_0_1_n_n.rhsIdx (ix2 r c)
            ((contrEquiv1 dot_S512x4096_S4096x129_S512x129_1_0_0_1_n_n 4096 rfl rfl).symm k))
        = (if k.val = (idx (ix2 r (0 : Fin 1))).toNat then 1 else 0) * x1 (ix2 k c) := by
    intro k
    have hk := contrEquiv1_symm_val dot_S512x4096_S4096x129_S512x129_1_0_0_1_n_n 4096 rfl rfl k
    have el : dot_S512x4096_S4096x129_S512x129_1_0_0_1_n_n.lhsIdx (ix2 r c)
        ((contrEquiv1 dot_S512x4096_S4096x129_S512x129_1_0_0_1_n_n 4096 rfl rfl).symm k) = ix2 r k :=
      funext fun a => Fin.ext (by
        match a with
        | ⟨0, _⟩ => exact lhs_gather_0 _ _
        | ⟨1, _⟩ => exact (lhs_gather_1 _ _).trans hk)
    have er : dot_S512x4096_S4096x129_S512x129_1_0_0_1_n_n.rhsIdx (ix2 r c)
        ((contrEquiv1 dot_S512x4096_S4096x129_S512x129_1_0_0_1_n_n 4096 rfl rfl).symm k) = ix2 k c :=
      funext fun a => Fin.ext (by
        match a with
        | ⟨0, _⟩ => exact (rhs_gather_0 _ _).trans hk
        | ⟨1, _⟩ => exact rhs_gather_1 _ _)
    rw [el, er, onehot_apply]
    unfold k0_pay7
    rw [shapeCast_self]
  rw [Finset.sum_congr rfl fun k _ => key k]
  rw [Finset.sum_eq_single (Cert.Loss.rowOf (idx (ix2 r (0 : Fin 1))))]
  · rw [if_pos (Cert.Loss.rowOf_val h), one_mul]
  · intro k _ hne
    rw [if_neg (fun hk => hne (Fin.ext (hk.trans (Cert.Loss.rowOf_val h).symm))), zero_mul]
  · intro hn
    exact absurd (Finset.mem_univ _) hn

end Cert.KernelIdeal.Tile

end
-- ==== Proof.TileValid.lean ====
/-
  The validity factor of a row. Row r of tile q = c·489 + i is row q·512 + r of the padded triplet array; the
  body compares that number with 500000 in 32-bit arithmetic and reads the bit as a float. All the numbers
  involved are below 2³¹, so the words are the numbers and the factor is 1 on a real triplet, 0 on padding.
-/
import proofs.«420433_j24773371363774_2_alg».proof.Proof.Gen.KernelIdeal.Skeleton
import proofs.«420433_j24773371363774_2_alg».proof.Proof.Loss
import Idealize.ShloMosaic.Lib.Pipeline.Value
import Idealize.ShloMosaic.Lib.ValueIdx
import Idealize.ShloMosaic.Lib.StableHlo.Predicate

noncomputable section

namespace Cert.KernelIdeal.Tile

open Idealize.ShloMosaic Idealize.ShloMosaic.ValueIdx Idealize.ShloMosaic.StableHlo.Predicate
open Cert.KernelIdeal Cert.KernelIdeal.Gen

/-- The word the body forms for row r of tile (c, i) is the number (c·489 + i)·512 + r. -/
theorem row_word (cc : Fin 2) (ii : Fin 489) (r : Fin 512) :
    IntOp.addi (BitVec.ofNat 32 r.val)
        (Scalar.muli (Scalar.addi (Scalar.muli (BitVec.ofNat 32 cc.val) 489#32) (BitVec.ofNat 32 ii.val)) 512#32)
      = BitVec.ofNat 32 ((cc.val * 489 + ii.val) * 512 + r.val) := by
  apply BitVec.eq_of_toNat_eq
  show (BitVec.ofNat 32 r.val + (BitVec.ofNat 32 cc.val * 489#32 + BitVec.ofNat 32 ii.val) * 512#32).toNat = _
  simp only [BitVec.toNat_add, BitVec.toNat_mul, BitVec.toNat_ofNat]
  have := cc.isLt; have := ii.isLt; have := r.isLt
  omega

/-- The compare bit: 1 exactly on the real triplets. -/
theorem row_bit (cc : Fin 2) (ii : Fin 489) (r : Fin 512) :
    IntOp.cmpi .slt (BitVec.ofNat 32 ((cc.val * 489 + ii.val) * 512 + r.val)) 500000#32
      = if (cc.val * 489 + ii.val) * 512 + r.val < 500000 then 1#1 else 0#1 := by
  have hc := cc.isLt; have hi := ii.isLt; have hr := r.isLt
  have hn : (cc.val * 489 + ii.val) * 512 + r.val < 2 ^ 31 := by omega
  have key := slt_ofNat_iff ((cc.val * 489 + ii.val) * 512 + r.val) 500000 hn (by norm_num)
  show BitVec.ofBool ((BitVec.ofNat 32 ((cc.val * 489 + ii.val) * 512 + r.val)).slt (BitVec.ofNat 32 500000)) = _
  split
  · next h => exact key.mpr h
  · next h => exact eq_zero_of_ne_one fun e => h (key.mp e)

/-- THE VALIDITY FACTOR at row r. -/
theorem valid_apply (cc : Fin 2) (ii : Fin 489) (r : Fin 512) (u : Fin 1) :
    k0_pay13 (F := Ideal) (BitVec.ofNat 32 cc.val) (BitVec.ofNat 32 ii.val) (ix2 r u)
      = Cert.Loss.vldAt (cc.val * 489 + ii.val) r := by
  unfold k0_pay13
  show FloatOps.sitofp (F := Ideal) .f32 ((IntOp.cmpi .slt (IntOp.addi
      (iota .tc S512x1 32 [0] iota_S512x1_d0_w32 (ix2 r u))
      (Scalar.muli (Scalar.addi (Scalar.muli (BitVec.ofNat 32 cc.val) 489#32) (BitVec.ofNat 32 ii.val)) 512#32))
      500000#32).setWidth 32) = _
  rw [iota_single_apply, show ((ix2 r u : S512x1.Idx) 0).val = r.val from rfl, row_word, row_bit]
  unfold Cert.Loss.vldAt
  split
  · show (((((1#1 : BitVec 1).setWidth 32).toInt : ℝ)) : EReal) = 1
    norm_num
  · show (((((0#1 : BitVec 1).setWidth 32).toInt : ℝ)) : EReal) = 0
    norm_num

end Cert.KernelIdeal.Tile

end
-- ==== Proof.TileValue.lean ====
/-
  One tile's arithmetic over the extended reals.

  A grid point holds a block of 512 triplets (a, p, n) and the table whose row i is the embedding E i in
  lanes 0..127 and the threshold β i in lane 128. The body reads the three rows of each triplet by one-hot
  products, forms
      d(u, v) = sqrt (∑_k (u_k - v_k)² + ε),   pos = max (d(E a, E p) - β a + margin) 0,
      neg = max (β a - d(E a, E n) + margin) 0,
  multiplies both by the row's validity factor, and adds ∑_r (pos_r + neg_r) to the running total and
  ∑_r [pos_r > 0] + ∑_r [neg_r > 0] to the running count. Here each of these vectors is read at a row, and
  the two updates are identified with the tile's contribution as the specification writes it.
-/
import proofs.«420433_j24773371363774_2_alg».proof.Proof.Gen.KernelIdeal.Skeleton
import proofs.«420433_j24773371363774_2_alg».proof.Proof.TileDefs
import proofs.«420433_j24773371363774_2_alg».proof.Proof.TileGather
import proofs.«420433_j24773371363774_2_alg».proof.Proof.TileValid
import proofs.«420433_j24773371363774_2_alg».proof.Proof.LibRowCasts
import Idealize.ShloMosaic.PureOps.Ideal.Laws
import Idealize.ShloMosaic.Lib.ValueIdx
import Idealize.ShloMosaic.Lib.Pipeline.Value

noncomputable section

namespace Cert.KernelIdeal.Tile

open Idealize.ShloMosaic Idealize.ShloMosaic.ValueIdx Idealize.ShloMosaic.RowCasts Cert.KernelIdeal Cert.KernelIdeal.Gen

/-! ## Layout: columns of the block, lanes of a gathered row, sums over lanes and over rows -/

/-- A [1, 1] array has one index. -/
theorem idx11 (i : S1x1.Idx) : i = ix2 (0 : Fin 1) (0 : Fin 1) := by
  funext a
  match a with
  | ⟨0, _⟩ => exact Fin.ext (by have := idx2_lt0 i; show (i 0).val = 0; omega)
  | ⟨1, _⟩ => exact Fin.ext (by have := idx2_lt1 i; show (i 1).val = 0; omega)

/-- Column 0 of the triplet block: the anchors. -/
theorem col0_apply (x0 : Vec Ideal S512x3 .i32) (r : Fin 512) (u : Fin 1) :
    extractStridedSlice S512x1 ![0, 0] (k0_pay6 (F := Ideal) x0) slices_S512x3_o0_0_S512x1 (ix2 r u)
      = x0 (ix2 r (0 : Fin 3)) := by
  refine (extractStridedSlice_apply _ _ _ (ix2 r u) (ix2 r (0 : Fin 3)) fun a => ?_).trans ?_
  · match a with
    | ⟨0, _⟩ => show r.val = 0 + r.val; omega
    | ⟨1, _⟩ => show (0 : ℕ) = 0 + u.val; have := u.isLt; omega
  · unfold k0_pay6; rw [shapeCast_self]

/-- Column 1: the positives. -/
theorem col1_apply (x0 : Vec Ideal S512x3 .i32) (r : Fin 512) (u : Fin 1) :
    extractStridedSlice S512x1 ![0, 1] (k0_pay6 (F := Ideal) x0) slices_S512x3_o0_1_S512x1 (ix2 r u)
      = x0 (ix2 r (1 : Fin 3)) := by
  refine (extractStridedSlice_apply _ _ _ (ix2 r u) (ix2 r (1 : Fin 3)) fun a => ?_).trans ?_
  · match a with
    | ⟨0, _⟩ => show r.val = 0 + r.val; omega
    | ⟨1, _⟩ => show (1 : ℕ) = 1 + u.val; have := u.isLt; omega
  · unfold k0_pay6; rw [shapeCast_self]

/-- Column 2: the negatives. -/
theorem col2_apply (x0 : Vec Ideal S512x3 .i32) (r : Fin 512) (u : Fin 1) :
    extractStridedSlice S512x1 ![0, 2] (k0_pay6 (F := Ideal) x0) slices_S512x3_o0_2_S512x1 (ix2 r u)
      = x0 (ix2 r (2 : Fin 3)) := by
  refine (extractStridedSlice_apply _ _ _ (ix2 r u) (ix2 r (2 : Fin 3)) fun a => ?_).trans ?_
  · match a with
    | ⟨0, _⟩ => show r.val = 0 + r.val; omega
    | ⟨1, _⟩ => show (2 : ℕ) = 2 + u.val; have := u.isLt; omega
  · unfold k0_pay6; rw [shapeCast_self]

/-- Lanes 0..127 of the row a column of row numbers gathers: the embedding of the row it names. -/
theorem gatherE_apply (idx : IVec S512x1 32) (x1 : Vec Ideal S4096x129 .bf16) (r : Fin 512) (k : Fin 128)
    (w : BitVec 32) (hw : idx (ix2 r (0 : Fin 1)) = w) (h : w.toNat < 4096) :
    extractStridedSlice S512x128 ![0, 0]
      (matmul dot_S512x4096_S4096x129_S512x129_1_0_0_1_n_n none
        (truncf .bf16 (sitofp (F := Ideal) .f32 (extui 32 (cmpi .eq (iota .tc S512x4096 32 [1] iota_S512x4096_d1_w32)
          (broadcastTo S512x4096 idx broadcasts_S512x1_S512x4096)) natLt_1_32)) bitsLt_bf16_f32)
        (k0_pay7 x1) (constant S512x129 .f32 0x00000000#32)) slices_S512x129_o0_0_S512x128 (ix2 r k)
      = tabE x1 (Cert.Loss.rowOf w) k := by
  subst hw
  unfold tabE
  refine (extractStridedSlice_apply _ _ _ (ix2 r k) (ix2 r (⟨k.val, by omega⟩ : Fin 129)) fun a => ?_).trans
    (gather_apply idx x1 r _ h)
  match a with
  | ⟨0, _⟩ => show r.val = 0 + r.val; omega
  | ⟨1, _⟩ => show k.val = 0 + k.val; omega

/-- Lane 128 of the gathered row: the threshold of the row it names. -/
theorem gatherβ_apply (idx : IVec S512x1 32) (x1 : Vec Ideal S4096x129 .bf16) (r : Fin 512) (u : Fin 1)
    (w : BitVec 32) (hw : idx (ix2 r (0 : Fin 1)) = w) (h : w.toNat < 4096) :
    extractStridedSlice S512x1 ![0, 128]
      (matmul dot_S512x4096_S4096x129_S512x129_1_0_0_1_n_n none
        (truncf .bf16 (sitofp (F := Ideal) .f32 (extui 32 (cmpi .eq (iota .tc S512x4096 32 [1] iota_S512x4096_d1_w32)
          (broadcastTo S512x4096 idx broadcasts_S512x1_S512x4096)) natLt_1_32)) bitsLt_bf16_f32)
        (k0_pay7 x1) (constant S512x129 .f32 0x00000000#32)) slices_S512x129_o0_128_S512x1 (ix2 r u)
      = tabβ x1 (Cert.Loss.rowOf w) := by
  subst hw
  unfold tabβ
  refine (extractStridedSlice_apply _ _ _ (ix2 r u) (ix2 r (⟨128, by decide⟩ : Fin 129)) fun a => ?_).trans
    (gather_apply idx x1 r _ h)
  match a with
  | ⟨0, _⟩ => show r.val = 0 + r.val; omega
  | ⟨1, _⟩ => show (128 : ℕ) = 128 + u.val; have := u.isLt; omega

/-- A sum over the 128 lanes of row r. -/
theorem laneSum_apply (src : FVec Ideal S512x128 .f32) (r : Fin 512) :
    multiReduction .add [1] S512 src 0x00000000#32 reduces_S512x128_S512 (.inl rfl) rfl (ix1 r)
      = ∑ k : Fin 128, src (ix2 r k) := by
  refine (Ideal.multiReduction_add_single src 0x00000000#32 reduces_S512x128_S512 (.inl rfl) rfl (ix1 r)).trans ?_
  exact Finset.sum_congr rfl fun k _ => congrArg src (funext fun a => Fin.ext (by
    match a with
    | ⟨0, _⟩ => rfl
    | ⟨1, _⟩ => rfl))

/-- The squared distance of row r of two [512, 128] arrays whose rows are known. -/
theorem sqd_row (A B : FVec Ideal S512x128 .f32) (r : Fin 512) (u v : Fin 128 → EReal)
    (hA : ∀ k, A (ix2 r k) = u k) (hB : ∀ k, B (ix2 r k) = v k) :
    multiReduction .add [1] S512 (mulf (subf A B) (subf A B)) 0x00000000#32 reduces_S512x128_S512 (.inl rfl) rfl (ix1 r)
      = Cert.Loss.sqd u v := by
  refine (laneSum_apply _ r).trans ?_
  unfold Cert.Loss.sqd
  refine Finset.sum_congr rfl fun k _ => ?_
  show (A (ix2 r k) - B (ix2 r k)) * (A (ix2 r k) - B (ix2 r k)) = _
  rw [hA, hB]

/-- The stabilised root of a vector of squared distances, kept as a column. -/
theorem dist_tail (q : FVec Ideal S512 .f32) (r : Fin 512) (u : Fin 1) :
    (sqrt (addf (shapeCast S512x1 q shapeCasts_S512_S512x1) (broadcast S512x1 (Scalar.ofBits (F := Ideal) .f32 0x322BCC77#32)))
      : FVec Ideal S512x1 .f32) (ix2 r u) = Ideal.sqrt (q (ix1 r) + Cert.Loss.eps) := by
  show Ideal.sqrt (shapeCast S512x1 q shapeCasts_S512_S512x1 (ix2 r u) + Cert.Loss.eps) = _
  rw [shapeCast_column_apply]

/-- A sum over the 512 rows of a column, kept as a [1, 1] array. -/
theorem colsum_cast (src : FVec Ideal S512x1 .f32) (i : S1x1.Idx) :
    shapeCast S1x1 (multiReduction .add [0] S1 src 0x00000000#32 reduces_S512x1_S1 (.inl rfl) rfl) shapeCasts_S1_S1x1 i
      = ∑ r : Fin 512, src (ix2 r (0 : Fin 1)) := by
  rw [idx11 i, shapeCast_column_apply]
  refine (Ideal.multiReduction_add_single src 0x00000000#32 reduces_S512x1_S1 (.inl rfl) rfl (ix1 (0 : Fin 1))).trans ?_
  exact Finset.sum_congr rfl fun r _ => congrArg src (funext fun a => Fin.ext (by
    match a with
    | ⟨0, _⟩ => rfl
    | ⟨1, _⟩ => rfl))

/-- A comparison bit "x > 0", widened and read as a number. -/
theorem bit_ind (x : EReal) :
    (FloatOps.sitofp (F := Ideal) .f32
      ((FloatOps.cmpf (F := Ideal) (φ := .f32) .ogt x (Scalar.ofBits (F := Ideal) .f32 0x00000000#32)).setWidth 32) : EReal)
      = Cert.Loss.ind x := by
  have hz : (Scalar.ofBits (F := Ideal) .f32 0x00000000#32 : EReal) = 0 := Ideal.ofBits_zero_f32
  rw [hz]
  show ((((Ideal.cmp .ogt x 0).setWidth 32).toInt : ℝ) : EReal) = (((Ideal.cmp .ogt x 0).toNat : ℝ) : EReal)
  rcases BitVec.eq_zero_or_eq_one (Ideal.cmp .ogt x 0) with h | h <;> rw [h] <;> simp

/-! ## The body's vectors at a row -/

section Rows

variable (x0 : Vec Ideal S512x3 .i32) (x1 : Vec Ideal S4096x129 .bf16)
  (hx : ∀ (r : Fin 512) (j : Fin 3), (x0 (ix2 r j)).toNat < 4096)

include hx

/-- The anchor's embedding. -/
theorem pay9_apply (r : Fin 512) (k : Fin 128) :
    k0_pay9 (F := Ideal) x0 x1 (ix2 r k) = tabE x1 (Cert.Loss.rowOf (x0 (ix2 r (0 : Fin 3)))) k := by
  unfold k0_pay9 k0_pay8
  exact gatherE_apply _ x1 r k _ (col0_apply x0 r 0) (hx r 0)

/-- The anchor's threshold. -/
theorem pay10_apply (r : Fin 512) (u : Fin 1) :
    k0_pay10 (F := Ideal) x0 x1 (ix2 r u) = tabβ x1 (Cert.Loss.rowOf (x0 (ix2 r (0 : Fin 3)))) := by
  unfold k0_pay10 k0_pay8
  exact gatherβ_apply _ x1 r u _ (col0_apply x0 r 0) (hx r 0)

/-- The squared distance from the anchor to the negative. -/
theorem pay12_apply (r : Fin 512) :
    k0_pay12 (F := Ideal) x0 x1 (ix1 r)
      = Cert.Loss.sqd (tabE x1 (Cert.Loss.rowOf (x0 (ix2 r (0 : Fin 3))))) (tabE x1 (Cert.Loss.rowOf (x0 (ix2 r (2 : Fin 3))))) := by
  unfold k0_pay12
  exact sqd_row _ _ r _ _ (fun k => pay9_apply x0 x1 hx r k)
    (fun k => gatherE_apply _ x1 r k _ (col2_apply x0 r 0) (hx r 2))

/-- The distance from the anchor to the positive. -/
theorem pay11_apply (r : Fin 512) (u : Fin 1) :
    k0_pay11 (F := Ideal) x0 x1 (ix2 r u)
      = Cert.Loss.dist (tabE x1 (Cert.Loss.rowOf (x0 (ix2 r (0 : Fin 3))))) (tabE x1 (Cert.Loss.rowOf (x0 (ix2 r (1 : Fin 3))))) := by
  unfold k0_pay11
  refine (dist_tail _ r u).trans ?_
  unfold Cert.Loss.dist
  refine congrArg (fun t => Ideal.sqrt (t + Cert.Loss.eps)) ?_
  exact sqd_row _ _ r _ _ (fun k => pay9_apply x0 x1 hx r k)
    (fun k => gatherE_apply _ x1 r k _ (col1_apply x0 r 0) (hx r 1))

/-- The positive hinge times the validity factor. -/
theorem pay14_row (cc : Fin 2) (ii : Fin 489) (r : Fin 512) (u : Fin 1) :
    k0_pay14 (F := Ideal) (BitVec.ofNat 32 cc.val) (BitVec.ofNat 32 ii.val) (k0_pay10 x0 x1) (k0_pay11 x0 x1) (ix2 r u)
      = Cert.Loss.posOf (tabE x1) (tabβ x1) (Cert.Loss.rowOf (x0 (ix2 r (0 : Fin 3)))) (Cert.Loss.rowOf (x0 (ix2 r (1 : Fin 3))))
        * Cert.Loss.vldAt (cc.val * 489 + ii.val) r := by
  unfold k0_pay14
  show max (k0_pay11 (F := Ideal) x0 x1 (ix2 r u) - k0_pay10 (F := Ideal) x0 x1 (ix2 r u) + Cert.Loss.margin)
      (Ideal.ofBits .f32 0x00000000#32)
    * k0_pay13 (F := Ideal) (BitVec.ofNat 32 cc.val) (BitVec.ofNat 32 ii.val) (ix2 r u) = _
  rw [pay11_apply x0 x1 hx, pay10_apply x0 x1 hx, valid_apply, Ideal.ofBits_zero_f32]
  rfl

/-- The negative hinge times the validity factor. -/
theorem pay15_row (cc : Fin 2) (ii : Fin 489) (r : Fin 512) (u : Fin 1) :
    k0_pay15 (F := Ideal) (BitVec.ofNat 32 cc.val) (BitVec.ofNat 32 ii.val) (k0_pay10 x0 x1) (k0_pay12 x0 x1) (ix2 r u)
      = Cert.Loss.negOf (tabE x1) (tabβ x1) (Cert.Loss.rowOf (x0 (ix2 r (0 : Fin 3)))) (Cert.Loss.rowOf (x0 (ix2 r (2 : Fin 3))))
        * Cert.Loss.vldAt (cc.val * 489 + ii.val) r := by
  unfold k0_pay15
  show max (k0_pay10 (F := Ideal) x0 x1 (ix2 r u)
        - (sqrt (addf (shapeCast S512x1 (k0_pay12 (F := Ideal) x0 x1) shapeCasts_S512_S512x1)
            (broadcast S512x1 (Scalar.ofBits (F := Ideal) .f32 0x322BCC77#32))) : FVec Ideal S512x1 .f32) (ix2 r u)
        + Cert.Loss.margin) (Ideal.ofBits .f32 0x00000000#32)
    * k0_pay13 (F := Ideal) (BitVec.ofNat 32 cc.val) (BitVec.ofNat 32 ii.val) (ix2 r u) = _
  rw [dist_tail, pay12_apply x0 x1 hx, pay10_apply x0 x1 hx, valid_apply, Ideal.ofBits_zero_f32]
  rfl

end Rows

/-! ## The two updates, the two resets, the output pair -/

/-- The running total after the tile: what it was plus the tile's contribution. -/
theorem total_step (cc : Fin 2) (ii : Fin 489) (x0 : Vec Ideal S512x3 .i32) (x1 : Vec Ideal S4096x129 .bf16)
    (s : Vec Ideal S1x1 .f32) (hx : ∀ (r : Fin 512) (j : Fin 3), (x0 (ix2 r j)).toNat < 4096) :
    k0_pay1 (k0_pay17 (F := Ideal) (BitVec.ofNat 32 cc.val) (BitVec.ofNat 32 ii.val) (k0_pay10 x0 x1) (k0_pay11 x0 x1)
        (k0_pay12 x0 x1) s)
      = fun _ => s (ix2 (0 : Fin 1) (0 : Fin 1)) + tT (cc.val * 489 + ii.val) x0 x1 := by
  funext i
  unfold k0_pay1
  rw [shapeCast_self]
  have hi := idx11 i
  subst hi
  unfold k0_pay17
  refine (congrArg (fun t => s (ix2 (0 : Fin 1) (0 : Fin 1)) + t) (colsum_cast _ _)).trans ?_
  refine congrArg (fun t => s (ix2 (0 : Fin 1) (0 : Fin 1)) + t) ?_
  unfold tT Cert.Loss.tileTotal rows
  refine Finset.sum_congr rfl fun r _ => ?_
  show k0_pay14 (F := Ideal) (BitVec.ofNat 32 cc.val) (BitVec.ofNat 32 ii.val) (k0_pay10 x0 x1) (k0_pay11 x0 x1) (ix2 r (0 : Fin 1))
      + k0_pay15 (F := Ideal) (BitVec.ofNat 32 cc.val) (BitVec.ofNat 32 ii.val) (k0_pay10 x0 x1) (k0_pay12 x0 x1) (ix2 r (0 : Fin 1)) = _
  rw [pay14_row x0 x1 hx, pay15_row x0 x1 hx]

/-- The running count after the tile. -/
theorem count_step (cc : Fin 2) (ii : Fin 489) (x0 : Vec Ideal S512x3 .i32) (x1 : Vec Ideal S4096x129 .bf16)
    (s : Vec Ideal S1x1 .f32) (hx : ∀ (r : Fin 512) (j : Fin 3), (x0 (ix2 r j)).toNat < 4096) :
    k0_pay2 (k0_pay16 (F := Ideal) (BitVec.ofNat 32 cc.val) (BitVec.ofNat 32 ii.val) (k0_pay10 x0 x1) (k0_pay11 x0 x1)
        (k0_pay12 x0 x1)) s
      = fun _ => s (ix2 (0 : Fin 1) (0 : Fin 1)) + tC (cc.val * 489 + ii.val) x0 x1 := by
  funext i
  unfold k0_pay2
  rw [shapeCast_self]
  have hi := idx11 i
  subst hi
  show s (ix2 (0 : Fin 1) (0 : Fin 1))
      + k0_pay16 (F := Ideal) (BitVec.ofNat 32 cc.val) (BitVec.ofNat 32 ii.val) (k0_pay10 x0 x1) (k0_pay11 x0 x1)
          (k0_pay12 x0 x1) (ix2 (0 : Fin 1) (0 : Fin 1)) = _
  refine congrArg (fun t => s (ix2 (0 : Fin 1) (0 : Fin 1)) + t) ?_
  unfold k0_pay16
  refine (congrArg₂ (fun a b : EReal => a + b) (colsum_cast _ _) (colsum_cast _ _)).trans ?_
  unfold tC Cert.Loss.tileCount rows
  refine congrArg₂ (fun a b : EReal => a + b) (Finset.sum_congr rfl fun r _ => ?_) (Finset.sum_congr rfl fun r _ => ?_)
  · refine (bit_ind _).trans ?_
    rw [pay14_row x0 x1 hx]
  · refine (bit_ind _).trans ?_
    rw [pay15_row x0 x1 hx]

/-- The total's reset value. -/
theorem zero_total : k0_pay4 (F := Ideal) = fun _ => (0 : EReal) := by
  unfold k0_pay4
  show shapeCast S1x1 (broadcast S1x1 (Scalar.ofBits (F := Ideal) .f32 0x00000000#32)) shapeCasts_S1x1_S1x1 = _
  rw [shapeCast_self]
  funext i
  exact Ideal.ofBits_zero_f32

/-- The count's reset value. -/
theorem zero_count : k0_pay5 (F := Ideal) = fun _ => (0 : EReal) := by
  unfold k0_pay5
  show shapeCast S1x1 (broadcast S1x1 (Scalar.ofBits (F := Ideal) .f32 0x00000000#32)) shapeCasts_S1x1_S1x1 = _
  rw [shapeCast_self]
  funext i
  exact Ideal.ofBits_zero_f32

/-- The output block: the total in lane 0, the count in lane 1. -/
theorem pair_apply (u v : Vec Ideal S1x1 .f32) (a b : Fin 1) (k : Fin 2) :
    k0_pay3 (F := Ideal) u v (ix3 a b k)
      = if k.val = 0 then u (ix2 (0 : Fin 1) (0 : Fin 1)) else v (ix2 (0 : Fin 1) (0 : Fin 1)) := by
  unfold k0_pay3
  refine (shapeCast_apply _ _ (ix3 a b k) (ix2 (0 : Fin 1) k) ?_).trans ?_
  · rw [Shape.rowMajor_val_two, Shape.rowMajor_val_three]
    show 0 * 2 + k.val = (a.val * 1 + b.val) * 2 + k.val
    have := a.isLt; have := b.isLt; omega
  · by_cases hk : k.val = 0
    · rw [if_pos hk]
      exact concatenate_pair_apply_left (1 : Fin S1x2.rank) u v concatenates_S1x1_S1x1_S1x2_d1 (ix2 (0 : Fin 1) k) rfl
        (ix2 (0 : Fin 1) (0 : Fin 1)) (fun c => by
          match c with
          | ⟨0, _⟩ => rfl
          | ⟨1, _⟩ => exact hk.symm)
    · rw [if_neg hk]
      exact concatenate_pair_apply_right (1 : Fin S1x2.rank) u v concatenates_S1x1_S1x1_S1x2_d1 (ix2 (0 : Fin 1) k) rfl rfl
        (ix2 (0 : Fin 1) (0 : Fin 1)) (fun c hc => by
          match c, hc with
          | ⟨0, _⟩, _ => rfl
          | ⟨1, _⟩, hc => exact absurd rfl hc)
        (by show 0 + 1 = k.val; have := k.isLt; omega)

end Cert.KernelIdeal.Tile

end
-- ==== Proof.Accum.lean ====
/-
  The two running sums over the grid, at the extended reals.

  The grid is two rows of 489 points; point t is at place t % 489 of row t / 489. Each point adds its tile's
  total to the first running sum and its tile's count to the second, the first point of a row starting both
  from zero. So after point t the sums hold the tiles' totals and counts added over the row's points up to t,
  and the block written out at a row's last point holds the row's total and the row's count.
-/
import proofs.«420433_j24773371363774_2_alg».proof.Proof.Blocks
import proofs.«420433_j24773371363774_2_alg».proof.Proof.Pieces
import proofs.«420433_j24773371363774_2_alg».proof.Proof.TileValue

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Blocks Cert.KernelIdeal.Tile

/-! ## The running sums after each point, and the block written out at the end of a row -/

section Sums

/-- A sum over the points of a row up to the current one: at the row's first point it is that point's term. -/
theorem acc_first (f : ℕ → EReal) (n : ℕ) (h0 : n % 489 = 0) :
    ∑ i ∈ Finset.range (n % 489 + 1), f (n - n % 489 + i) = f n := by
  rw [h0]
  simp only [Nat.sub_zero, zero_add, Finset.sum_range_one, Nat.add_zero]

/-- At a later point of the row it is the sum up to the point before, plus this point's term. -/
theorem acc_next (f : ℕ → EReal) (n : ℕ) (h0 : ¬n % 489 = 0) :
    ∑ i ∈ Finset.range ((n - 1) % 489 + 1), f (n - 1 - (n - 1) % 489 + i) + f n
      = ∑ i ∈ Finset.range (n % 489 + 1), f (n - n % 489 + i) := by
  have h1 : n % 489 = (n - 1) % 489 + 1 := by omega
  have h2 : n - n % 489 = n - 1 - (n - 1) % 489 := by omega
  have h3 : n - 1 - (n - 1) % 489 + ((n - 1) % 489 + 1) = n := by omega
  rw [h2]
  conv_rhs => rw [h1, Finset.sum_range_succ, h3]

end Sums

/-- The two grid coordinates of point t: its row t / 489 and its place t % 489 in the row. -/
theorem coords_row : ∀ t : Fin cfg0.N, ((grid0.coords t) 0).val = t.val / 489 :=
  (by decide +kernel : ∀ t : Fin grid0.N, ((grid0.coords t) 0).val = t.val / 489)
theorem coords_col : ∀ t : Fin cfg0.N, ((grid0.coords t) 1).val = t.val % 489 :=
  (by decide +kernel : ∀ t : Fin grid0.N, ((grid0.coords t) 1).val = t.val % 489)

section Invariant

variable (m : (ℓ : Loc nD τ sig) → Buf (Elt Ideal) ℓ)

/-- Inside the grid a tile's contribution is the body's tile total (count) on the point's two blocks. -/
theorem tileT_of_lt (c : Dev nD) (t : Fin cfg0.N) : tileT m c t.val = tT t.val (tblk m c t) (tabblk m c t) := by
  unfold tileT
  rw [dif_pos t.isLt]
theorem tileC_of_lt (c : Dev nD) (t : Fin cfg0.N) : tileC m c t.val = tC t.val (tblk m c t) (tabblk m c t) := by
  unfold tileC
  rw [dif_pos t.isLt]

/-- One point's update of the first running sum: the sum before, plus tile t's total. -/
theorem stepT_eq (t : Fin cfg0.N) (x0 : Vec Ideal S512x3 .i32) (x1 : Vec Ideal S4096x129 .bf16) (s : Vec Ideal S1x1 .f32)
    (hx : ∀ (r : Fin 512) (j : Fin 3), (x0 (ix2 r j)).toNat < 4096) :
    stepT (F := Ideal) (grid0.coords t) x0 x1 s = fun _ => s (ix2 (0 : Fin 1) (0 : Fin 1)) + tT t.val x0 x1 := by
  have hN : t.val < 978 := lt_of_lt_of_eq t.isLt (show cfg0.N = 978 from N_0)
  show k0_pay1 (k0_pay17 (F := Ideal) (BitVec.ofNat 32 ((grid0.coords t) 0).val) (BitVec.ofNat 32 ((grid0.coords t) 1).val)
    (k0_pay10 x0 x1) (k0_pay11 x0 x1) (k0_pay12 x0 x1) s) = _
  rw [coords_row t, coords_col t]
  refine (total_step ⟨t.val / 489, by omega⟩ ⟨t.val % 489, by omega⟩ x0 x1 s hx).trans ?_
  show (fun _ => s (ix2 (0 : Fin 1) (0 : Fin 1)) + tT (t.val / 489 * 489 + t.val % 489) x0 x1) = _
  rw [Nat.div_add_mod' t.val 489]

/-- One point's update of the second running sum: the sum before, plus tile t's count. -/
theorem stepC_eq (t : Fin cfg0.N) (x0 : Vec Ideal S512x3 .i32) (x1 : Vec Ideal S4096x129 .bf16) (s : Vec Ideal S1x1 .f32)
    (hx : ∀ (r : Fin 512) (j : Fin 3), (x0 (ix2 r j)).toNat < 4096) :
    stepC (F := Ideal) (grid0.coords t) x0 x1 s = fun _ => s (ix2 (0 : Fin 1) (0 : Fin 1)) + tC t.val x0 x1 := by
  have hN : t.val < 978 := lt_of_lt_of_eq t.isLt (show cfg0.N = 978 from N_0)
  show k0_pay2 (k0_pay16 (F := Ideal) (BitVec.ofNat 32 ((grid0.coords t) 0).val) (BitVec.ofNat 32 ((grid0.coords t) 1).val)
    (k0_pay10 x0 x1) (k0_pay11 x0 x1) (k0_pay12 x0 x1)) s = _
  rw [coords_row t, coords_col t]
  refine (count_step ⟨t.val / 489, by omega⟩ ⟨t.val % 489, by omega⟩ x0 x1 s hx).trans ?_
  show (fun _ => s (ix2 (0 : Fin 1) (0 : Fin 1)) + tC (t.val / 489 * 489 + t.val % 489) x0 x1) = _
  rw [Nat.div_add_mod' t.val 489]

/-- After point n both running sums hold the sums of the tiles' contributions over the row's points up to n. -/
theorem scratch_both (c : Dev nD) (hb : BlocksInRange m c) : ∀ (n : ℕ) (h : n < cfg0.N),
    (outsAt0 (F := Ideal) m c n h).2.1 = (fun _ => ∑ i ∈ Finset.range (n % 489 + 1), tileT m c (n - n % 489 + i))
    ∧ (outsAt0 (F := Ideal) m c n h).2.2 = (fun _ => ∑ i ∈ Finset.range (n % 489 + 1), tileC m c (n - n % 489 + i)) := by
  intro n
  induction n using Nat.strong_induction_on with
  | _ n ih =>
    intro h
    obtain ⟨t, rfl⟩ : ∃ t : Fin cfg0.N, t.val = n := ⟨⟨n, h⟩, rfl⟩
    have hN : t.val < 978 := lt_of_lt_of_eq t.isLt (show cfg0.N = 978 from N_0)
    by_cases h0 : t.val % 489 = 0
    · have h1 : ¬t.val % 489 = 488 := by omega
      rw [outsAt0_A m c t h0 h1]
      dsimp only
      constructor
      · refine (sout_A_0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h' => h1 ((hcond0_1 t).mp h')) (tblk m c t) (tabblk m c t)).trans ?_
        refine (stepT_eq t (tblk m c t) (tabblk m c t) (k0_pay4 (F := Ideal)) (hb t)).trans ?_
        funext _
        rw [zero_total, zero_add, acc_first (fun q => tileT m c q) t.val h0]
        exact (tileT_of_lt m c t).symm
      · refine (sout_A_1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h' => h1 ((hcond0_1 t).mp h')) (tblk m c t) (tabblk m c t)).trans ?_
        refine (stepC_eq t (tblk m c t) (tabblk m c t) (k0_pay5 (F := Ideal)) (hb t)).trans ?_
        funext _
        rw [zero_count, zero_add, acc_first (fun q => tileC m c q) t.val h0]
        exact (tileC_of_lt m c t).symm
    · by_cases h1 : t.val % 489 = 488
      · obtain ⟨ihT, ihC⟩ := ih (t.val - 1) (by omega) (Nat.lt_of_le_of_lt (Nat.sub_le _ _) t.isLt)
        rw [outsAt0_C m c t h0 h1]
        dsimp only
        constructor
        · refine (sout_C_0 (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1) (tblk m c t) (tabblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2).trans ?_
          refine (stepT_eq t (tblk m c t) (tabblk m c t) (outsAt0 (F := Ideal) m c (t.val - 1) (Nat.lt_of_le_of_lt (Nat.sub_le _ _) t.isLt)).2.1 (hb t)).trans ?_
          funext _
          rw [ihT, ← tileT_of_lt m c t]
          exact acc_next (fun q => tileT m c q) t.val h0
        · refine (sout_C_1 (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1) (tblk m c t) (tabblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2).trans ?_
          refine (stepC_eq t (tblk m c t) (tabblk m c t) (outsAt0 (F := Ideal) m c (t.val - 1) (Nat.lt_of_le_of_lt (Nat.sub_le _ _) t.isLt)).2.2 (hb t)).trans ?_
          funext _
          rw [ihC, ← tileC_of_lt m c t]
          exact acc_next (fun q => tileC m c q) t.val h0
      · obtain ⟨ihT, ihC⟩ := ih (t.val - 1) (by omega) (Nat.lt_of_le_of_lt (Nat.sub_le _ _) t.isLt)
        rw [outsAt0_B m c t h0 h1]
        dsimp only
        constructor
        · refine (sout_B_0 (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) (fun h' => h1 ((hcond0_1 t).mp h')) (tblk m c t) (tabblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2).trans ?_
          refine (stepT_eq t (tblk m c t) (tabblk m c t) (outsAt0 (F := Ideal) m c (t.val - 1) (Nat.lt_of_le_of_lt (Nat.sub_le _ _) t.isLt)).2.1 (hb t)).trans ?_
          funext _
          rw [ihT, ← tileT_of_lt m c t]
          exact acc_next (fun q => tileT m c q) t.val h0
        · refine (sout_B_1 (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) (fun h' => h1 ((hcond0_1 t).mp h')) (tblk m c t) (tabblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2).trans ?_
          refine (stepC_eq t (tblk m c t) (tabblk m c t) (outsAt0 (F := Ideal) m c (t.val - 1) (Nat.lt_of_le_of_lt (Nat.sub_le _ _) t.isLt)).2.2 (hb t)).trans ?_
          funext _
          rw [ihC, ← tileC_of_lt m c t]
          exact acc_next (fun q => tileC m c q) t.val h0

theorem scratch_total (c : Dev nD) (hb : BlocksInRange m c) (t : Fin cfg0.N) :
    (outsAt0 (F := Ideal) m c t.val t.isLt).2.1 = fun _ => ∑ i ∈ Finset.range (t.val % 489 + 1), tileT m c (t.val - t.val % 489 + i) :=
  (scratch_both m c hb t.val t.isLt).1

theorem scratch_count (c : Dev nD) (hb : BlocksInRange m c) (t : Fin cfg0.N) :
    (outsAt0 (F := Ideal) m c t.val t.isLt).2.2 = fun _ => ∑ i ∈ Finset.range (t.val % 489 + 1), tileC m c (t.val - t.val % 489 + i) :=
  (scratch_both m c hb t.val t.isLt).2

/-- At the last point of a row the output block holds the row's total and the row's count. -/
theorem out_at_last (c : Dev nD) (hb : BlocksInRange m c) (t : Fin cfg0.N) (h : t.val % 489 = 488) (a b : Fin 1) (k : Fin 2) :
    (outsAt0 (F := Ideal) m c t.val t.isLt).1 (ix3 a b k)
      = if k.val = 0 then ∑ i ∈ Finset.range 489, tileT m c (t.val - 488 + i) else ∑ i ∈ Finset.range 489, tileC m c (t.val - 488 + i) := by
  have h0 : ¬t.val % 489 = 0 := by omega
  have h1 : t.val % 489 = 488 := h
  have hT := scratch_total m c hb t
  have hC := scratch_count m c hb t
  rw [outsAt0_C m c t h0 h1] at hT hC ⊢
  dsimp only at hT hC ⊢
  rw [sout_C_0 (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1) (tblk m c t) (tabblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2] at hT
  rw [sout_C_1 (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1) (tblk m c t) (tabblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2] at hC
  refine (congrFun (out_C_2 (F := Ideal) c (grid0.coords t) (ms0_0 t) (hs0_0 t) (ms0_1 t) (hs0_1 t) (ms0_2 t) (hs0_2 t) scM0_0 (Memref.isWhole_whole _) scM0_1 (Memref.isWhole_whole _) (fun h' => h0 ((hcond0_0 t).mp h')) ((hcond0_1 t).mpr h1) (tblk m c t) (tabblk m c t) (outsAt0 (F := Ideal) m c (t.val - 1) (Nat.lt_of_le_of_lt (Nat.sub_le _ _) t.isLt)).2.1 (outsAt0 (F := Ideal) m c (t.val - 1) (Nat.lt_of_le_of_lt (Nat.sub_le _ _) t.isLt)).2.2) (ix3 a b k)).trans ?_
  rw [pair_apply, hT, hC, h]

end Invariant

end Cert.KernelIdeal.Accum

end
-- ==== Proof.OutArray.lean ====
/-
  The [2, 1, 2] output array after the region. Core k's last point, k·489 + 488, is the only one of its 489 points
  that writes a block back, and that block is row k of the array: entry (k, 0, 0) the running total over the core's
  489 tiles, entry (k, 0, 1) the running count. The two rows cover the array.
-/
import proofs.«420433_j24773371363774_2_alg».proof.Proof.Accum
import Idealize.ShloMosaic.Lib.Pipeline.Value

noncomputable section

namespace Cert.KernelIdeal.Out

open Idealize.ShloMosaic Idealize.ShloMosaic.ValueIdx Idealize.ShloMosaic.TcCoe
open Idealize.SL Idealize.SL.Sem
open Cert.KernelIdeal Cert.KernelIdeal.Gen Cert.KernelIdeal.Blocks

variable (m : (ℓ : Loc nD τ sig) → Buf (Elt Ideal) ℓ)

/-- The output block of point t is block (t / 489, 0, 0) of the array. -/
theorem out_index : ∀ t : Fin cfg0.N, win0_2.index t (0 : Fin 3) = t.val / 489
    ∧ win0_2.index t (1 : Fin 3) = 0 ∧ win0_2.index t (2 : Fin 3) = 0 :=
  (by decide +kernel : ∀ t : Fin grid0.N, win0_2.index t (0 : Fin 3) = t.val / 489
    ∧ win0_2.index t (1 : Fin 3) = 0 ∧ win0_2.index t (2 : Fin 3) = 0)

/-- An index of the array is in point t's block iff each coordinate is in the block's range on its axis. -/
theorem mem_out_blk (t : Fin cfg0.N) (i : S2x1x2.Idx) :
    i ∈ ((cfg0.win 2).blk t).view.set ↔ ∀ a : Fin 3, win0_2.index t a * S1x1x2.size a ≤ (i a).val
      ∧ (i a).val < win0_2.index t a * S1x1x2.size a + S1x1x2.size a := by
  show i ∈ ((View.whole main_v12).slice (win0_2.rect t)).set ↔ _
  rw [View.set_slice_whole, Rect.mem_set_unit]
  exact Iff.rfl

/-- Every index (k, 0, l) of the array is in the block core k's last point writes back. -/
theorem out_cover (i : S2x1x2.Idx) :
    ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 2 := (i 2).isLt
  have hN : cfg0.N = 978 := N_0
  obtain ⟨t, ht⟩ : ∃ t : Fin cfg0.N, t.val = (i 0).val * 489 + 488 := ⟨⟨(i 0).val * 489 + 488, by omega⟩, rfl⟩
  obtain ⟨e0, e1, e2⟩ := out_index t
  refine ⟨t, (flush0_2 t).mpr (by omega), ?_⟩
  rw [mem_out_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 2 ≤ (i 2).val ∧ (i 2).val < win0_2.index t (2 : Fin 3) * 2 + 2
    omega

/-- What a core's last point writes back is its block of the array of totals and counts. -/
theorem flushed_eq (c : Dev nD) (hb : BlocksInRange m c) (t : Fin cfg0.N) (hf : t.val % 489 = 488) :
    (dats (F := Ideal) m 0 c).flushed 2 t = ((cfg0.win 2).blk t).view.read (Elt Ideal) (outArr m c) := by
  show (cfg0.win 2).cut (grid0.coords t) ((dats (F := Ideal) m 0 c).after 2 t) = _
  rw [after0_2]
  funext j
  show (outsAt0 (F := Ideal) m c t.val t.isLt).1 ((cfg0.win 2).xinj (grid0.coords t) j)
      = outArr m c (((cfg0.win 2).blk t).view.emb j)
  obtain ⟨e0, e1, e2⟩ := out_index t
  have hj0 : (j 0).val < 1 := (j 0).isLt
  have hj2 : (j 2).val < 2 := (j 2).isLt
  have h2 : ((((cfg0.win 2).blk t).view.emb j) 2).val = (j 2).val := by
    show win0_2.index t (2 : Fin 3) * 2 + 1 * (j 2).val = _
    omega
  have h0 : ((((cfg0.win 2).blk t).view.emb j) 0).val * 489 = t.val - 488 := by
    show (win0_2.index t (0 : Fin 3) * 1 + 1 * (j 0).val) * 489 = _
    omega
  have hj1 : (j 1).val < 1 := (j 1).isLt
  have hx : ((cfg0.win 2).xinj (grid0.coords t) j : S1x1x2.Idx)
      = ix3 (0 : Fin 1) (0 : Fin 1) (⟨(j 2).val, hj2⟩ : Fin 2) := by
    funext a
    apply Fin.ext
    match a with
    | ⟨0, _⟩ => show (j 0).val = 0; omega
    | ⟨1, _⟩ => show (j 1).val = 0; omega
    | ⟨2, _⟩ => rfl
  rw [hx, Accum.out_at_last m c hb t hf]
  unfold outArr
  simp only [h2, h0]

/-- What the region leaves in the output array. -/
theorem out_final (c : Dev nD) (hb : BlocksInRange m c) : (dats (F := Ideal) m 0 c).arrAt 2 cfg0.N = outArr m c :=
  (dats (F := Ideal) m 0 c).arrAt_eq_of_cover 2 (outArr m c)
    (fun t hft => flushed_eq m c hb t ((flush0_2 t).mp hft)) out_cover

end Cert.KernelIdeal.Out

end
-- ==== Proof.HostTail.lean ====
/-
  The host operations after the region. The region leaves a [2, 1, 2] array; the program slices out its two
  columns, sums each over the 2 cores, and forms T / max C 1 where C > 0 and T otherwise.
-/
import proofs.«420433_j24773371363774_2_alg».proof.Proof.OutArray
import Idealize.ShloMosaic.Lib.IdealHost
import Idealize.ShloMosaic.Lib.ValueIdxRank1
import Idealize.ShloMosaic.Lib.Pipeline.Value
import Idealize.ShloMosaic.Lib.StableHlo.Run
import Idealize.ShloMosaic.PureOps.Ideal.Laws

noncomputable section

namespace Cert.KernelIdeal.Out

open Idealize.ShloMosaic Idealize.ShloMosaic.ValueIdx Idealize.ShloMosaic.TcCoe
open Idealize.SL Idealize.SL.Sem
open Cert.KernelIdeal Cert.KernelIdeal.Gen Cert.KernelIdeal.Blocks

variable (m : (ℓ : Loc nD τ sig) → Buf (Elt Ideal) ℓ) (ρ : Dev nD → PrngReg)

/-- Column l of a [2, 1, 2] array — sliced out, flattened to [2], summed from the zero word — is the sum of its 2 entries. -/
theorem col_sum (off : Fin S2x1x2.rank → ℕ) (l : Fin 2) (h0 : off 0 = 0) (h1 : off 1 = 0) (h2 : off 2 = l.val)
    (hs : S2x1x2.Slices off S2x1x1) (X : S2x1x2.Idx → EReal) :
    Host.reduceAdd (F := Ideal) (φ := .f32) (shapeCast S2 (extractStridedSlice S2x1x1 off X hs) shapeCasts_S2x1x1_S2)
        (constant S_ .f32 0x00000000#32) reducesTo_S2_S_d0 h_S_
      = fun _ => ∑ k : Fin 2, X (ix3 k (0 : Fin 1) l) := by
  funext j
  rw [hostReduceAdd_apply, Ideal.hostReduceAdd_total reducesTo_S2_S_d0 (fun b => b.elim0), constant_apply,
    Ideal.ofBits_zero_f32, zero_add, ← (idxEquiv1 (n := 2)).symm.sum_comp]
  refine Finset.sum_congr rfl fun k _ => ?_
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · exact extractStridedSlice_apply off X hs (ix3 k (0 : Fin 1) (0 : Fin 1)) (ix3 k (0 : Fin 1) l)
      (fun a => by fin_cases a <;> simp [h0, h1, h2])

/-- The region's exit contents read at the output array. -/
theorem exit_out (c : Dev nD) (G : S2x1x2.Idx → EReal) (hG : (dats (F := Ideal) m 0 c).arrAt 2 cfg0.N = G) :
    Pipeline.withArrays (cfgs 0).spec c (V0 m c) (fun w => (dats (F := Ideal) m 0 c).arrAt w (cfgs 0).N) (Proc.devRef .tc main_v12) = G :=
  (Pipeline.withArrays_arr spec0 launch0.win.arr_inj c _ _ 2).trans hG

/-- The program's result from the region's exit contents. -/
theorem tail_result (c : Dev nD) (G : S2x1x2.Idx → EReal) (hG : (dats (F := Ideal) m 0 c).arrAt 2 cfg0.N = G) :
    Pipeline.afterTail₀ cfgs (dats (F := Ideal) m) 0 (V0 m) [hostOps1, hostOps1_1] c main_v22
      = Cert.Loss.finish (fun _ => ∑ k : Fin 2, G (ix3 k (0 : Fin 1) (0 : Fin 2)))
          (fun _ => ∑ k : Fin 2, G (ix3 k (0 : Fin 1) (1 : Fin 2))) := by
  unfold Pipeline.afterTail₀
  simp only [hostOps1, hostOps1_1, List.flatten_cons, List.flatten_nil, List.append_nil, List.cons_append, List.nil_append]
  after_results
  rw [exit_out m c G hG]
  simp only [StableHlo.TRef.ofBuf, StableHlo.TRef.toBuf, cast_eq]
  show Cert.Loss.finish
      (Host.reduceAdd (F := Ideal) (φ := .f32)
        (shapeCast S2 (extractStridedSlice S2x1x1 ![0, 0, 0] G slices_S2x1x2_S2x1x1_0_0_0) shapeCasts_S2x1x1_S2)
        (constant S_ .f32 0x00000000#32) reducesTo_S2_S_d0 h_S_)
      (Host.reduceAdd (F := Ideal) (φ := .f32)
        (shapeCast S2 (extractStridedSlice S2x1x1 ![0, 0, 1] G slices_S2x1x2_S2x1x1_0_0_1) shapeCasts_S2x1x1_S2)
        (constant S_ .f32 0x00000000#32) reducesTo_S2_S_d0 h_S_) = _
  rw [col_sum ![0, 0, 0] 0 rfl rfl rfl, col_sum ![0, 0, 1] 1 rfl rfl rfl]

/-- The whole program's run when the region leaves the array G c on core c: the result is the final select of the
    two column sums of G c, and the four argument arrays end as launched. -/
theorem kernel_run_tail_of (G : Dev nD → S2x1x2.Idx → EReal)
    (hG : ∀ c, (dats (F := Ideal) m 0 c).arrAt 2 cfg0.N = G c) :
    θ_run defs (onTc (τ := τ) (main (F := Ideal))) ⟨m, fun _ => 0, ρ⟩ (fun r => ∀ c : Dev nD,
      r.2.mem ((c.tc : Thread nD τ).loc main_v22)
          = Cert.Loss.finish (fun _ => ∑ k : Fin 2, G c (ix3 k (0 : Fin 1) (0 : Fin 2)))
              (fun _ => ∑ k : Fin 2, G c (ix3 k (0 : Fin 1) (1 : Fin 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v22 (Pipeline.mem_restRefs_of main_v22 (by decide) (by decide))).trans (tail_result m c (G c) (hG c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-- The whole program's run, with the result named. -/
theorem kernel_run_tail (hb : ∀ c, BlocksInRange m c) :
    θ_run defs (onTc (τ := τ) (main (F := Ideal))) ⟨m, fun _ => 0, ρ⟩ (fun r => ∀ c : Dev nD,
      r.2.mem ((c.tc : Thread nD τ).loc main_v22)
          = Cert.Loss.finish (fun _ => ∑ k : Fin 2, outArr m c (ix3 k (0 : Fin 1) (0 : Fin 2)))
              (fun _ => ∑ k : Fin 2, outArr m c (ix3 k (0 : Fin 1) (1 : Fin 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  kernel_run_tail_of m ρ (outArr m) (fun c => out_final m c (hb c))

end Cert.KernelIdeal.Out

end
-- ==== Proof.Regroup.lean ====
/-
  Regrouping a sum. The kernel adds up 2 · 489 tiles of 512 rows each, 500736 rows in all, of which the last 736
  are padding that contributes nothing; the reference adds up the 500000 triplets once. In a commutative monoid
  the two sums are one: row r of tile i of core k is row (k · 489 + i) · 512 + r of the padded array.
-/
import Mathlib.Algebra.BigOperators.Group.Finset.Basic
import Mathlib.Data.Fintype.BigOperators

namespace Cert.Regroup

open Finset

variable {M : Type} [AddCommMonoid M]

/-- a rows of b entries each, laid end to end, are a · b entries. -/
theorem sum_rows (g : ℕ → M) (a b : ℕ) :
    ∑ i ∈ range a, ∑ j ∈ range b, g (i * b + j) = ∑ n ∈ range (a * b), g n := by
  induction a with
  | zero => simp
  | succ a ih => rw [sum_range_succ, ih, Nat.succ_mul, sum_range_add]

/-- The kernel's order of summation — cores, then tiles, then rows — over a function that vanishes from 500000 on
    is the sum over the 500000 triplets. -/
theorem sum_tiles (g : ℕ → M) (hz : ∀ n, 500000 ≤ n → g n = 0) :
    ∑ k : Fin 2, ∑ i ∈ range 489, ∑ r : Fin 512, g ((k.val * 489 + i) * 512 + r.val)
      = ∑ t : Fin 500000, g t.val := by
  have inner : ∀ q : ℕ, ∑ r : Fin 512, g (q * 512 + r.val) = ∑ r ∈ range 512, g (q * 512 + r) :=
    fun q => Fin.sum_univ_eq_sum_range (fun r => g (q * 512 + r)) 512
  simp only [inner]
  rw [Fin.sum_univ_eq_sum_range (fun k => ∑ i ∈ range 489, ∑ r ∈ range 512, g ((k * 489 + i) * 512 + r)) 2,
    Fin.sum_univ_eq_sum_range (fun t => g t) 500000]
  have tile : ∀ k : ℕ, ∑ i ∈ range 489, ∑ r ∈ range 512, g ((k * 489 + i) * 512 + r)
      = ∑ n ∈ range (489 * 512), g (k * (489 * 512) + n) := by
    intro k
    rw [← sum_rows (fun n => g (k * (489 * 512) + n)) 489 512]
    refine sum_congr rfl fun i _ => sum_congr rfl fun r _ => congrArg g ?_
    omega
  simp only [tile]
  rw [sum_rows g 2 (489 * 512), show 2 * (489 * 512) = 500000 + 736 from rfl, sum_range_add]
  rw [sum_eq_zero (s := range 736) (fun n _ => hz (500000 + n) (Nat.le_add_right _ _)), add_zero]

end Cert.Regroup
-- ==== Proof.KernelValue.lean ====
/-
  The kernel's two accumulated sums are the loss's total and count.

  A tile's block holds rows q·512 … q·512 + 511 of the padded triplet array, and the table block holds the
  embeddings beside each row's threshold. So a real row's two hinges are that triplet's pos and neg, a padding
  row's are multiplied by 0, and the sum over cores, tiles and rows is the sum over the 500000 triplets.
-/
import proofs.«420433_j24773371363774_2_alg».proof.Proof.Blocks
import proofs.«420433_j24773371363774_2_alg».proof.Proof.Regroup

noncomputable section

namespace Cert.KernelIdeal.KValue

open Idealize.ShloMosaic Idealize.ShloMosaic.ValueIdx Idealize.SL.Sem Cert.KernelIdeal Cert.KernelIdeal.Gen
open Cert.KernelIdeal.Blocks Cert.Loss

variable (m : (ℓ : Loc nD τ sig) → Buf (Elt Ideal) ℓ)

/-- The four argument arrays on core c. -/
abbrev a0 (c : Dev nD) : S4096x128.Idx → EReal := m ((c.tc : Thread nD τ).loc main_arg0)
abbrev a1 (c : Dev nD) : S4096.Idx → BitVec 32 := m ((c.tc : Thread nD τ).loc main_arg1)
abbrev a2 (c : Dev nD) : S500000x3.Idx → BitVec 32 := m ((c.tc : Thread nD τ).loc main_arg2)
abbrev a3 (c : Dev nD) : S100.Idx → EReal := m ((c.tc : Thread nD τ).loc main_arg3)

/-- The triplet block at a point is its 512 rows of the triplet array, zero past row 500000. -/
def TripletBlocks (c : Dev nD) : Prop :=
  ∀ (t : Fin cfg0.N) (r : Fin 512) (j : Fin 3),
    tblk m c t (ix2 r j) = if h : t.val * 512 + r.val < 500000 then a2 m c (ix2 ⟨t.val * 512 + r.val, h⟩ j) else 0#32

/-- The table block at a point is the embeddings with each row's threshold in lane 128. -/
def TableBlocks (c : Dev nD) : Prop :=
  ∀ (t : Fin cfg0.N) (i : Fin 4096) (d : Fin 129),
    tabblk m c t (ix2 i d) = if h : d.val < 128 then a0 m c (ix2 i ⟨d.val, h⟩) else betOf (a1 m c) (a3 m c) i

/-- Row n of the padded array: its triplet's pos (and neg), nothing for a padding row. -/
def posTerm (c : Dev nD) (n : ℕ) : EReal :=
  if h : n < 500000 then posT (a0 m c) (a1 m c) (a2 m c) (a3 m c) ⟨n, h⟩ else 0
def negTerm (c : Dev nD) (n : ℕ) : EReal :=
  if h : n < 500000 then negT (a0 m c) (a1 m c) (a2 m c) (a3 m c) ⟨n, h⟩ else 0
def posCnt (c : Dev nD) (n : ℕ) : EReal :=
  if h : n < 500000 then ind (posT (a0 m c) (a1 m c) (a2 m c) (a3 m c) ⟨n, h⟩) else 0
def negCnt (c : Dev nD) (n : ℕ) : EReal :=
  if h : n < 500000 then ind (negT (a0 m c) (a1 m c) (a2 m c) (a3 m c) ⟨n, h⟩) else 0

theorem ind_zero : ind 0 = 0 := by
  simp [ind, Ideal.cmp]

variable {m}

section Blocks

variable {c : Dev nD} (htb : TripletBlocks m c) (htab : TableBlocks m c)

include htab in
theorem tabE_eq (t : Fin cfg0.N) : Tile.tabE (tabblk m c t) = embOf (a0 m c) := by
  funext i k
  show tabblk m c t (ix2 i (⟨k.val, _⟩ : Fin 129)) = a0 m c (ix2 i k)
  rw [htab t i, dif_pos k.isLt]

include htab in
theorem tabβ_eq (t : Fin cfg0.N) : Tile.tabβ (tabblk m c t) = betOf (a1 m c) (a3 m c) := by
  funext i
  show tabblk m c t (ix2 i (⟨128, _⟩ : Fin 129)) = _
  rw [htab t i, dif_neg (by decide)]

include htb in
theorem rows_real (t : Fin cfg0.N) (r : Fin 512) (j : Fin 3) (h : t.val * 512 + r.val < 500000) :
    Tile.rows (tblk m c t) r j = a2 m c (ix2 ⟨t.val * 512 + r.val, h⟩ j) := by
  show tblk m c t (ix2 r j) = _
  rw [htb t r j, dif_pos h]

include htb htab in
/-- One row's pos hinge times its validity. -/
theorem row_pos (t : Fin cfg0.N) (r : Fin 512) :
    posOf (Tile.tabE (tabblk m c t)) (Tile.tabβ (tabblk m c t)) (rowOf (Tile.rows (tblk m c t) r 0))
        (rowOf (Tile.rows (tblk m c t) r 1)) * vldAt t.val r = posTerm m c (t.val * 512 + r.val) := by
  unfold vldAt posTerm
  by_cases h : t.val * 512 + r.val < 500000
  · rw [if_pos h, dif_pos h, mul_one, tabE_eq htab, tabβ_eq htab, rows_real htb t r 0 h, rows_real htb t r 1 h]
    rfl
  · rw [if_neg h, dif_neg h, mul_zero]

include htb htab in
theorem row_neg (t : Fin cfg0.N) (r : Fin 512) :
    negOf (Tile.tabE (tabblk m c t)) (Tile.tabβ (tabblk m c t)) (rowOf (Tile.rows (tblk m c t) r 0))
        (rowOf (Tile.rows (tblk m c t) r 2)) * vldAt t.val r = negTerm m c (t.val * 512 + r.val) := by
  unfold vldAt negTerm
  by_cases h : t.val * 512 + r.val < 500000
  · rw [if_pos h, dif_pos h, mul_one, tabE_eq htab, tabβ_eq htab, rows_real htb t r 0 h, rows_real htb t r 2 h]
    rfl
  · rw [if_neg h, dif_neg h, mul_zero]

include htb htab in
theorem row_posCnt (t : Fin cfg0.N) (r : Fin 512) :
    ind (posOf (Tile.tabE (tabblk m c t)) (Tile.tabβ (tabblk m c t)) (rowOf (Tile.rows (tblk m c t) r 0))
        (rowOf (Tile.rows (tblk m c t) r 1)) * vldAt t.val r) = posCnt m c (t.val * 512 + r.val) := by
  rw [row_pos htb htab]
  unfold posTerm posCnt
  by_cases h : t.val * 512 + r.val < 500000
  · rw [dif_pos h, dif_pos h]
  · rw [dif_neg h, dif_neg h, ind_zero]

include htb htab in
theorem row_negCnt (t : Fin cfg0.N) (r : Fin 512) :
    ind (negOf (Tile.tabE (tabblk m c t)) (Tile.tabβ (tabblk m c t)) (rowOf (Tile.rows (tblk m c t) r 0))
        (rowOf (Tile.rows (tblk m c t) r 2)) * vldAt t.val r) = negCnt m c (t.val * 512 + r.val) := by
  rw [row_neg htb htab]
  unfold negTerm negCnt
  by_cases h : t.val * 512 + r.val < 500000
  · rw [dif_pos h, dif_pos h]
  · rw [dif_neg h, dif_neg h, ind_zero]

include htb htab in
/-- A tile's contribution to the total is the sum of its 512 rows' terms. -/
theorem tileT_eq (q : ℕ) (hq : q < 978) :
    tileT m c q = ∑ r : Fin 512, (posTerm m c (q * 512 + r.val) + negTerm m c (q * 512 + r.val)) := by
  have hN : q < cfg0.N := lt_of_lt_of_eq hq N_0.symm
  unfold tileT
  rw [dif_pos hN]
  unfold Tile.tT tileTotal
  exact Finset.sum_congr rfl fun r _ => by
    rw [row_pos htb htab ⟨q, hN⟩ r, row_neg htb htab ⟨q, hN⟩ r]

include htb htab in
theorem tileC_eq (q : ℕ) (hq : q < 978) :
    tileC m c q = ∑ r : Fin 512, posCnt m c (q * 512 + r.val) + ∑ r : Fin 512, negCnt m c (q * 512 + r.val) := by
  have hN : q < cfg0.N := lt_of_lt_of_eq hq N_0.symm
  unfold tileC
  rw [dif_pos hN]
  unfold Tile.tC tileCount
  rw [Finset.sum_congr rfl fun r _ => row_posCnt htb htab ⟨q, hN⟩ r,
    Finset.sum_congr rfl fun r _ => row_negCnt htb htab ⟨q, hN⟩ r]

include htb htab in
/-- The two cores' totals add up to the loss's total. -/
theorem total_eq :
    ∑ k : Fin 2, outArr m c (ix3 k (0 : Fin 1) (0 : Fin 2)) = Cert.Loss.total (a0 m c) (a1 m c) (a2 m c) (a3 m c) := by
  have h1 : ∀ k : Fin 2, outArr m c (ix3 k (0 : Fin 1) (0 : Fin 2))
      = ∑ i ∈ Finset.range 489, ∑ r : Fin 512,
          (fun n => posTerm m c n + negTerm m c n) ((k.val * 489 + i) * 512 + r.val) := by
    intro k
    show (if ((ix3 k (0 : Fin 1) (0 : Fin 2)) 2).val = 0 then _ else _) = _
    rw [if_pos (show ((ix3 k (0 : Fin 1) (0 : Fin 2)) 2).val = 0 from rfl)]
    refine Finset.sum_congr rfl fun i hi => ?_
    have hi' : i < 489 := Finset.mem_range.mp hi
    have hk : k.val < 2 := k.isLt
    exact tileT_eq htb htab (k.val * 489 + i) (by omega)
  rw [Finset.sum_congr rfl fun k _ => h1 k,
    Cert.Regroup.sum_tiles (fun n => posTerm m c n + negTerm m c n) (fun n hn => by
      show posTerm m c n + negTerm m c n = 0
      unfold posTerm negTerm
      rw [dif_neg (by omega), dif_neg (by omega), add_zero])]
  unfold Cert.Loss.total
  refine Finset.sum_congr rfl fun t _ => ?_
  show posTerm m c t.val + negTerm m c t.val = _
  unfold posTerm negTerm
  rw [dif_pos t.isLt, dif_pos t.isLt]

include htb htab in
/-- The two cores' counts add up to the loss's count. -/
theorem count_eq :
    ∑ k : Fin 2, outArr m c (ix3 k (0 : Fin 1) (1 : Fin 2)) = Cert.Loss.count (a0 m c) (a1 m c) (a2 m c) (a3 m c) := by
  have h1 : ∀ k : Fin 2, outArr m c (ix3 k (0 : Fin 1) (1 : Fin 2))
      = ∑ i ∈ Finset.range 489, ∑ r : Fin 512,
          (fun n => posCnt m c n + negCnt m c n) ((k.val * 489 + i) * 512 + r.val) := by
    intro k
    show (if ((ix3 k (0 : Fin 1) (1 : Fin 2)) 2).val = 0 then _ else _) = _
    rw [if_neg (show ¬((ix3 k (0 : Fin 1) (1 : Fin 2)) 2).val = 0 from Nat.one_ne_zero)]
    refine Finset.sum_congr rfl fun i hi => ?_
    have hi' : i < 489 := Finset.mem_range.mp hi
    have hk : k.val < 2 := k.isLt
    rw [tileC_eq htb htab (k.val * 489 + i) (by omega), ← Finset.sum_add_distrib]
  rw [Finset.sum_congr rfl fun k _ => h1 k,
    Cert.Regroup.sum_tiles (fun n => posCnt m c n + negCnt m c n) (fun n hn => by
      show posCnt m c n + negCnt m c n = 0
      unfold posCnt negCnt
      rw [dif_neg (by omega), dif_neg (by omega), add_zero])]
  unfold Cert.Loss.count
  rw [← Finset.sum_add_distrib]
  refine Finset.sum_congr rfl fun t _ => ?_
  show posCnt m c t.val + negCnt m c t.val = _
  unfold posCnt negCnt
  rw [dif_pos t.isLt, dif_pos t.isLt]

include htb htab in
/-- So the kernel's result is the loss. -/
theorem answer_eq :
    finish (fun _ => ∑ k : Fin 2, outArr m c (ix3 k (0 : Fin 1) (0 : Fin 2)))
        (fun _ => ∑ k : Fin 2, outArr m c (ix3 k (0 : Fin 1) (1 : Fin 2)))
      = answer (a0 m c) (a1 m c) (a2 m c) (a3 m c) := by
  unfold answer
  rw [total_eq htb htab, count_eq htb htab]

include htb in
/-- Every block entry names a table row when every triplet entry does: a padding row's entries are 0. -/
theorem blocks_in_range (hin : ∀ (t : Fin 500000) (j : Fin 3), (a2 m c (ix2 t j)).toNat < 4096) :
    BlocksInRange m c := by
  intro t r j
  rw [htb t r j]
  split
  · exact hin _ _
  · decide

end Blocks

end Cert.KernelIdeal.KValue

end
-- ==== Proof.lean ====
/-
  The certificate of the triplet margin loss kernel against its jnp reference, over the extended reals.

  The kernel gathers the three rows of each triplet by a one-hot matrix product with a resident table (the
  embeddings beside each row's class threshold), forms the two hinges per triplet, and accumulates their sum
  and the number of strictly positive ones tile by tile, 489 tiles of 512 rows on each of two cores; the host
  adds the two cores' partial sums and divides. The reference gathers the rows directly and sums over the
  500000 triplets once. Read over the extended reals the two are one function of the arguments wherever every
  triplet entry names a table row, which is the added evident-domain conjunct of the precondition: a one-hot
  row with no hit reads a zero row, where the reference's gather clamps.

  Proved here: the three frames (the two kernels' are the generated frame certificates; the reference's is its run
  with the result dropped), the idealization (nothing was rewritten), and the value claim, assembled from
    * the body's arithmetic over a variable block and table      (TileValue),
    * what each control case leaves in the two running sums       (Pieces, Accum),
    * the output array and the host operations after the region   (OutArray, HostTail),
    * the two input blocks' contents and the decoded precondition (HostPrefix, PreFacts),
    * the regrouping of the tiles' sums into one sum              (Regroup, KernelValue),
    * the reference's stages read at an index                      (RefValue).
-/
import proofs.«420433_j24773371363774_2_alg».proof.Defs
import proofs.«420433_j24773371363774_2_alg».proof.Proof.Gen.Kernel
import proofs.«420433_j24773371363774_2_alg».proof.Proof.Gen.Kernel.Frame
import proofs.«420433_j24773371363774_2_alg».proof.Proof.Gen.KernelIdeal
import proofs.«420433_j24773371363774_2_alg».proof.Proof.Gen.KernelIdeal.Frame
import proofs.«420433_j24773371363774_2_alg».proof.Proof.Gen.ReferenceIdeal
import proofs.«420433_j24773371363774_2_alg».proof.Proof.Gen.Pre_finite_inputs
import proofs.«420433_j24773371363774_2_alg».proof.Proof.RefRun
import proofs.«420433_j24773371363774_2_alg».proof.Proof.RefRead
import proofs.«420433_j24773371363774_2_alg».proof.Proof.RefValue
import proofs.«420433_j24773371363774_2_alg».proof.Proof.PreFacts
import proofs.«420433_j24773371363774_2_alg».proof.Proof.HostPrefix
import proofs.«420433_j24773371363774_2_alg».proof.Proof.HostTail
import proofs.«420433_j24773371363774_2_alg».proof.Proof.KernelValue
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both programs end at the loss of the argument arrays. -/
theorem algebraic : Cert.algebraic_KernelIdeal_ReferenceIdeal := by
  intro m ρ m' ρ' hpre hagree
  have hin : ∀ (c : Dev Cert.KernelIdeal.nD) (t : Fin 500000) (j : Fin 3),
      (Cert.KernelIdeal.KValue.a2 m c (ix2 t j)).toNat < 4096 :=
    fun c t j => Cert.PreFacts.triplets_in_range _ _ _ _ (hpre c) t j
  have htb : ∀ c, Cert.KernelIdeal.KValue.TripletBlocks m c := fun c => Cert.KernelIdeal.Prefix.tblk_apply m c
  have htab : ∀ c, Cert.KernelIdeal.KValue.TableBlocks m c := fun c => Cert.KernelIdeal.Prefix.tabblk_apply m c
  refine ⟨fun c => Cert.Loss.answer (Cert.KernelIdeal.KValue.a0 m c) (Cert.KernelIdeal.KValue.a1 m c)
      (Cert.KernelIdeal.KValue.a2 m c) (Cert.KernelIdeal.KValue.a3 m c), ?_, ?_⟩
  · exact (θ_run Cert.KernelIdeal.defs _ _).mono
      (fun r h c => ⟨(h c).1.trans (Cert.KernelIdeal.KValue.answer_eq (htb c) (htab c)), (h c).2⟩)
      (Cert.KernelIdeal.Out.kernel_run_tail m ρ fun c => Cert.KernelIdeal.KValue.blocks_in_range (htb c) (hin c))
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v77_eq, (hagree c).1, (hagree c).2.1, (hagree c).2.2.1, (hagree c).2.2.2]
    exact Cert.ReferenceIdeal.RefValue.ref_answer _ _ _ _ (hin c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
